-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x16x2048x64 : Shape := ⟨4, ![2, 16, 2048, 64]⟩
abbrev S_ : Shape := ⟨0, ![]⟩

class Facts : Prop where
  bcast_S_S2x16x2048x64 : S_.BroadcastsInDim S2x16x2048x64 (![] : Fin 0 → Fin S2x16x2048x64.rank)
  reducesTo_S2x16x2048x64_S_d0_1_2_3 : S2x16x2048x64.ReducesTo [0, 1, 2, 3] S_
  h_S_ : 0 < S_.numel

variable [Facts]

def fn_part1 {F : FTy → Type} [FloatOps F] (main_arg4 : FVec F S2x16x2048x64 .f32) (main_v13 : IVec S_ 1) (main_v16 : IVec S2x16x2048x64 1) : IVec S_ 1 :=
  let main_c_5 : IVec S_ 1 := constantI S_ 1 1#1
  let main_v17 : IVec S_ 1 := (fun x v => Host.reduce IntOp.andi x v reducesTo_S2x16x2048x64_S_d0_1_2_3 h_S_) main_v16 main_c_5
  let main_v18 : IVec S_ 1 := andi main_v13 main_v17
  let main_v19 : FVec F S2x16x2048x64 .f32 := Host.absf main_arg4
  let main_cst_6 : FVec F S_ .f32 := constant S_ .f32 0x7F800000#32
  let main_v20 : FVec F S2x16x2048x64 .f32 := broadcastInDim S2x16x2048x64 ![] bcast_S_S2x16x2048x64 main_cst_6
  let main_v21 : IVec S2x16x2048x64 1 := cmpf .olt main_v19 main_v20
  let main_c_7 : IVec S_ 1 := constantI S_ 1 1#1
  let main_v22 : IVec S_ 1 := (fun x v => Host.reduce IntOp.andi x v reducesTo_S2x16x2048x64_S_d0_1_2_3 h_S_) main_v21 main_c_7
  let main_v23 : IVec S_ 1 := andi main_v18 main_v22
  main_v23

def fn {F : FTy → Type} [FloatOps F] (main_arg0 : FVec F S2x16x2048x64 .f32) (main_arg1 : FVec F S2x16x2048x64 .f32) (main_arg2 : FVec F S2x16x2048x64 .f32) (main_arg3 : FVec F S2x16x2048x64 .f32) (main_arg4 : FVec F S2x16x2048x64 .f32) : IVec S_ 1 :=
  let main_v0 : FVec F S2x16x2048x64 .f32 := Host.absf main_arg0
  let main_cst : FVec F S_ .f32 := constant S_ .f32 0x7F800000#32
  let main_v1 : FVec F S2x16x2048x64 .f32 := broadcastInDim S2x16x2048x64 ![] bcast_S_S2x16x2048x64 main_cst
  let main_v2 : IVec S2x16x2048x64 1 := cmpf .olt main_v0 main_v1
  let main_c : IVec S_ 1 := constantI S_ 1 1#1
  let main_v3 : IVec S_ 1 := (fun x v => Host.reduce IntOp.andi x v reducesTo_S2x16x2048x64_S_d0_1_2_3 h_S_) main_v2 main_c
  let main_v4 : FVec F S2x16x2048x64 .f32 := Host.absf main_arg1
  let main_cst_0 : FVec F S_ .f32 := constant S_ .f32 0x7F800000#32
  let main_v5 : FVec F S2x16x2048x64 .f32 := broadcastInDim S2x16x2048x64 ![] bcast_S_S2x16x2048x64 main_cst_0
  let main_v6 : IVec S2x16x2048x64 1 := cmpf .olt main_v4 main_v5
  let main_c_1 : IVec S_ 1 := constantI S_ 1 1#1
  let main_v7 : IVec S_ 1 := (fun x v => Host.reduce IntOp.andi x v reducesTo_S2x16x2048x64_S_d0_1_2_3 h_S_) main_v6 main_c_1
  let main_v8 : IVec S_ 1 := andi main_v3 main_v7
  let main_v9 : FVec F S2x16x2048x64 .f32 := Host.absf main_arg2
  let main_cst_2 : FVec F S_ .f32 := constant S_ .f32 0x7F800000#32
  let main_v10 : FVec F S2x16x2048x64 .f32 := broadcastInDim S2x16x2048x64 ![] bcast_S_S2x16x2048x64 main_cst_2
  let main_v11 : IVec S2x16x2048x64 1 := cmpf .olt main_v9 main_v10
  let main_c_3 : IVec S_ 1 := constantI S_ 1 1#1
  let main_v12 : IVec S_ 1 := (fun x v => Host.reduce IntOp.andi x v reducesTo_S2x16x2048x64_S_d0_1_2_3 h_S_) main_v11 main_c_3
  let main_v13 : IVec S_ 1 := andi main_v8 main_v12
  let main_v14 : FVec F S2x16x2048x64 .f32 := Host.absf main_arg3
  let main_cst_4 : FVec F S_ .f32 := constant S_ .f32 0x7F800000#32
  let main_v15 : FVec F S2x16x2048x64 .f32 := broadcastInDim S2x16x2048x64 ![] bcast_S_S2x16x2048x64 main_cst_4
  let main_v16 : IVec S2x16x2048x64 1 := cmpf .olt main_v14 main_v15
  fn_part1 (F := F) main_arg4 main_v13 main_v16
-- ==== Kernel.lean ====
abbrev S2x16x2048x64 : Shape := ⟨4, ![2, 16, 2048, 64]⟩
abbrev S32x2048x64 : Shape := ⟨3, ![32, 2048, 64]⟩
abbrev S1x1024x64 : Shape := ⟨3, ![1, 1024, 64]⟩
abbrev S1x2048x64 : Shape := ⟨3, ![1, 2048, 64]⟩
abbrev S2048x128 : Shape := ⟨2, ![2048, 128]⟩
abbrev S2048x64 : Shape := ⟨2, ![2048, 64]⟩
abbrev S1024x64 : Shape := ⟨2, ![1024, 64]⟩
abbrev S1024x128 : Shape := ⟨2, ![1024, 128]⟩
abbrev S128x2048 : Shape := ⟨2, ![128, 2048]⟩
abbrev S1024x2048 : Shape := ⟨2, ![1024, 2048]⟩
abbrev S1024 : Shape := ⟨1, ![1024]⟩
abbrev S1024x1 : Shape := ⟨2, ![1024, 1]⟩

abbrev nBuf : Space → Nat
  | .hbm => 12
  | .vmem => 14
  | .smem => 0
  | _ => 0

abbrev bufTy : (tb : Table) → Fin (tcTables nBuf tb) → BufTy
  | .hbm, ⟨0, _⟩ => ⟨S2x16x2048x64, .f32⟩
  | .hbm, ⟨1, _⟩ => ⟨S2x16x2048x64, .f32⟩
  | .hbm, ⟨2, _⟩ => ⟨S2x16x2048x64, .f32⟩
  | .hbm, ⟨3, _⟩ => ⟨S2x16x2048x64, .f32⟩
  | .hbm, ⟨4, _⟩ => ⟨S2x16x2048x64, .f32⟩
  | .hbm, ⟨5, _⟩ => ⟨S32x2048x64, .f32⟩
  | .hbm, ⟨6, _⟩ => ⟨S32x2048x64, .f32⟩
  | .hbm, ⟨7, _⟩ => ⟨S32x2048x64, .f32⟩
  | .hbm, ⟨8, _⟩ => ⟨S32x2048x64, .f32⟩
  | .hbm, ⟨9, _⟩ => ⟨S32x2048x64, .f32⟩
  | .hbm, ⟨10, _⟩ => ⟨S32x2048x64, .f32⟩
  | .hbm, ⟨11, _⟩ => ⟨S2x16x2048x64, .f32⟩
  | .local _ .vmem, ⟨0, _⟩ => ⟨S1x1024x64, .f32⟩
  | .local _ .vmem, ⟨1, _⟩ => ⟨S1x1024x64, .f32⟩
  | .local _ .vmem, ⟨2, _⟩ => ⟨S1x2048x64, .f32⟩
  | .local _ .vmem, ⟨3, _⟩ => ⟨S1x2048x64, .f32⟩
  | .local _ .vmem, ⟨4, _⟩ => ⟨S1x2048x64, .f32⟩
  | .local _ .vmem, ⟨5, _⟩ => ⟨S1x2048x64, .f32⟩
  | .local _ .vmem, ⟨6, _⟩ => ⟨S1x1024x64, .f32⟩
  | .local _ .vmem, ⟨7, _⟩ => ⟨S1x1024x64, .f32⟩
  | .local _ .vmem, ⟨8, _⟩ => ⟨S1x2048x64, .f32⟩
  | .local _ .vmem, ⟨9, _⟩ => ⟨S1x2048x64, .f32⟩
  | .local _ .vmem, ⟨10, _⟩ => ⟨S1x1024x64, .f32⟩
  | .local _ .vmem, ⟨11, _⟩ => ⟨S1x1024x64, .f32⟩
  | .local _ .vmem, ⟨12, _⟩ => ⟨S2048x128, .bf16⟩
  | .local _ .vmem, ⟨13, _⟩ => ⟨S2048x64, .bf16⟩
  | _, _ => ⟨S2x16x2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![32, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x2048x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1024x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

class Facts₀ : Prop where
  shapeCasts_S2x16x2048x64_S32x2048x64 : S2x16x2048x64.ShapeCasts S32x2048x64
  inb_S1x2048x64_S1x2048x64_0_0_0 : ∀ a, (![0, 0, 0] : Fin 3 → Nat) a + S1x2048x64.size a ≤ S1x2048x64.size a
  h_S1x2048x64 : 0 < S1x2048x64.numel
  shapeCasts_S1x2048x64_S2048x64 : S1x2048x64.ShapeCasts S2048x64
  concatenates_S2048x64_S2048x64_S2048x128_d1 : Shape.Concatenates [S2048x64, S2048x64] S2048x128 1
  bitsLt_bf16_f32 : FTy.bits .bf16 < FTy.bits .f32
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  packedbf16_S2048x128_S2048x128_0_0 : (Rect.unit (s := S2048x128) ![0, 0] S2048x128.size inb_S2048x128_S2048x128_0_0).PackedRows (EltTy.packing .bf16)
  inb_S2048x64_S2048x64_0_0 : ∀ a, (![0, 0] : Fin 2 → Nat) a + S2048x64.size a ≤ S2048x64.size a
  h_S2048x64 : 0 < S2048x64.numel
  shapeCasts_S2048x64_S2048x64 : S2048x64.ShapeCasts S2048x64
  packedbf16_S2048x64_S2048x64_0_0 : (Rect.unit (s := S2048x64) ![0, 0] S2048x64.size inb_S2048x64_S2048x64_0_0).PackedRows (EltTy.packing .bf16)
  inb_S1x1024x64_S1x1024x64_0_0_0 : ∀ a, (![0, 0, 0] : Fin 3 → Nat) a + S1x1024x64.size a ≤ S1x1024x64.size a
  h_S1x1024x64 : 0 < S1x1024x64.numel
  shapeCasts_S1x1024x64_S1024x64 : S1x1024x64.ShapeCasts S1024x64
  concatenates_S1024x64_S1024x64_S1024x128_d1 : Shape.Concatenates [S1024x64, S1024x64] S1024x128 1
  transposes_S2048x128_p1_0_S128x2048 : S2048x128.Transposes [1, 0] S128x2048
  reduces_S1024x2048_S1024 : S1024x2048.Reduces [1] S1024
  shapeCasts_S1024_S1024x1 : S1024.ShapeCasts S1024x1
  broadcasts_S1024x1_S1024x2048 : S1024x1.Broadcasts S1024x2048
  broadcasts_S1024x1_S1024x64 : S1024x1.Broadcasts S1024x64
  shapeCasts_S1024x64_S1x1024x64 : S1024x64.ShapeCasts S1x1024x64
  shapeCasts_S32x2048x64_S2x16x2048x64 : S32x2048x64.ShapeCasts S2x16x2048x64
  dot_S1024x128_S128x2048_S1024x2048_1_0_0_1_n_n_wf : DotDims.WF S1024x128 S128x2048 S1024x2048 [1] [0] [0] [1] [] []
  dot_S1024x2048_S2048x64_S1024x64_1_0_0_1_n_n_wf : DotDims.WF S1024x2048 S2048x64 S1024x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x64.size a ≤ S32x2048x64.size a
  hwx0_0 : ∀ i : grid0.Coords, EltTy.bits .f32 = 32 ∨ (Rect.block (s := S32x2048x64) S1x1024x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x64.size a ≤ S32x2048x64.size a
  hwx0_1 : ∀ i : grid0.Coords, EltTy.bits .f32 = 32 ∨ (Rect.block (s := S32x2048x64) S1x2048x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048x64.size a ≤ S32x2048x64.size a
  hwx0_2 : ∀ i : grid0.Coords, EltTy.bits .f32 = 32 ∨ (Rect.block (s := S32x2048x64) S1x2048x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024x64.size a ≤ S32x2048x64.size a
  hwx0_3 : ∀ i : grid0.Coords, EltTy.bits .f32 = 32 ∨ (Rect.block (s := S32x2048x64) S1x1024x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x2048x64.size a ≤ S32x2048x64.size a
  hwx0_4 : ∀ i : grid0.Coords, EltTy.bits .f32 = 32 ∨ (Rect.block (s := S32x2048x64) S1x2048x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1024x64.size a ≤ S32x2048x64.size a
  hwx0_5 : ∀ i : grid0.Coords, EltTy.bits .f32 = 32 ∨ (Rect.block (s := S32x2048x64) S1x1024x64.size (cc0_transform_5 i) (hinb0_5 i)).WholeWords (EltTy.packing .f32)

variable [Facts₀]

def dot_S1024x128_S128x2048_S1024x2048_1_0_0_1_n_n : DotDims S1024x128 S128x2048 S1024x2048 where
  lhsContracting := [1]
  rhsContracting := [0]
  lhsNonContracting := [0]
  rhsNonContracting := [1]
  lhsBatch := []
  rhsBatch := []
  wf := dot_S1024x128_S128x2048_S1024x2048_1_0_0_1_n_n_wf
def dot_S1024x2048_S2048x64_S1024x64_1_0_0_1_n_n : DotDims S1024x2048 S2048x64 S1024x64 where
  lhsContracting := [1]
  rhsContracting := [0]
  lhsNonContracting := [0]
  rhsNonContracting := [1]
  lhsBatch := []
  rhsBatch := []
  wf := dot_S1024x2048_S2048x64_S1024x64_1_0_0_1_n_n_wf

abbrev win0_0 : Pipeline.Window sig grid0 :=
  Pipeline.Window.ofSpec (Memref.whole main_v0) S1x1024x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x2048x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x2048x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x1024x64.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v4) S1x2048x64.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v5) S1x1024x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S2x16x2048x64 : Shape := ⟨4, ![2, 16, 2048, 64]⟩
abbrev S2x16x2048x2048 : Shape := ⟨4, ![2, 16, 2048, 2048]⟩
abbrev S_ : Shape := ⟨0, ![]⟩
abbrev S2x16x2048 : Shape := ⟨3, ![2, 16, 2048]⟩
abbrev S2x16x2048x1 : Shape := ⟨4, ![2, 16, 2048, 1]⟩

abbrev nBuf : Space → Nat
  | .hbm => 29
  | .vmem => 0
  | .smem => 0
  | _ => 0

abbrev bufTy : (tb : Table) → Fin (tcTables nBuf tb) → BufTy
  | .hbm, ⟨0, _⟩ => ⟨S2x16x2048x64, .f32⟩
  | .hbm, ⟨1, _⟩ => ⟨S2x16x2048x64, .f32⟩
  | .hbm, ⟨2, _⟩ => ⟨S2x16x2048x64, .f32⟩
  | .hbm, ⟨3, _⟩ => ⟨S2x16x2048x64, .f32⟩
  | .hbm, ⟨4, _⟩ => ⟨S2x16x2048x64, .f32⟩
  | .hbm, ⟨5, _⟩ => ⟨S2x16x2048x2048, .f32⟩
  | .hbm, ⟨6, _⟩ => ⟨S_, .f32⟩
  | .hbm, ⟨7, _⟩ => ⟨S2x16x2048x2048, .f32⟩
  | .hbm, ⟨8, _⟩ => ⟨S2x16x2048x2048, .f32⟩
  | .hbm, ⟨9, _⟩ => ⟨S2x16x2048x2048, .f32⟩
  | .hbm, ⟨10, _⟩ => ⟨S_, .f32⟩
  | .hbm, ⟨11, _⟩ => ⟨S2x16x2048x2048, .f32⟩
  | .hbm, ⟨12, _⟩ => ⟨S2x16x2048x2048, .f32⟩
  | .hbm, ⟨13, _⟩ => ⟨S2x16x2048x2048, .f32⟩
  | .hbm, ⟨14, _⟩ => ⟨S_, .f32⟩
  | .hbm, ⟨15, _⟩ => ⟨S2x16x2048, .f32⟩
  | .hbm, ⟨16, _⟩ => ⟨S_, .f32⟩
  | .hbm, ⟨17, _⟩ => ⟨S2x16x2048, .f32⟩
  | .hbm, ⟨18, _⟩ => ⟨S2x16x2048, .f32⟩
  | .hbm, ⟨19, _⟩ => ⟨S2x16x2048x1, .f32⟩
  | .hbm, ⟨20, _⟩ => ⟨S2x16x2048x2048, .f32⟩
  | .hbm, ⟨21, _⟩ => ⟨S2x16x2048x2048, .f32⟩
  | .hbm, ⟨22, _⟩ => ⟨S2x16x2048x2048, .f32⟩
  | .hbm, ⟨23, _⟩ => ⟨S_, .f32⟩
  | .hbm, ⟨24, _⟩ => ⟨S2x16x2048, .f32⟩
  | .hbm, ⟨25, _⟩ => ⟨S2x16x2048x1, .f32⟩
  | .hbm, ⟨26, _⟩ => ⟨S2x16x2048x2048, .f32⟩
  | .hbm, ⟨27, _⟩ => ⟨S2x16x2048x2048, .f32⟩
  | .hbm, ⟨28, _⟩ => ⟨S2x16x2048x64, .f32⟩
  | _, _ => ⟨S2x16x2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_cst_2 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩

abbrev nD : Nat := 1
abbrev τ : Topo := Topo.v7x

variable {F : FTy → Type} [FloatOps F]

class Facts₀ : Prop where
  bcast_S_S2x16x2048x2048 : S_.BroadcastsInDim S2x16x2048x2048 (![] : Fin 0 → Fin S2x16x2048x2048.rank)
  reducesTo_S2x16x2048x2048_S2x16x2048_d3 : S2x16x2048x2048.ReducesTo [3] S2x16x2048
  h_S_ : 0 < S_.numel
  bcast_S_S2x16x2048 : S_.BroadcastsInDim S2x16x2048 (![] : Fin 0 → Fin S2x16x2048.rank)
  bcast_S2x16x2048_S2x16x2048x1_0_1_2 : S2x16x2048.BroadcastsInDim S2x16x2048x1 (![0, 1, 2] : Fin 3 → Fin S2x16x2048x1.rank)
  bcast_S2x16x2048x1_S2x16x2048x2048_0_1_2_3 : S2x16x2048x1.BroadcastsInDim S2x16x2048x2048 (![0, 1, 2, 3] : Fin 4 → Fin S2x16x2048x2048.rank)
  dot_S2x16x2048x64_S2x16x2048x64_S2x16x2048x2048_3_3_2_2_01_01_wf : DotDims.WF S2x16x2048x64 S2x16x2048x64 S2x16x2048x2048 [3] [3] [2] [2] [0, 1] [0, 1]
  dot_S2x16x2048x2048_S2x16x2048x64_S2x16x2048x64_3_2_2_3_01_01_wf : DotDims.WF S2x16x2048x2048 S2x16x2048x64 S2x16x2048x64 [3] [2] [2] [3] [0, 1] [0, 1]

variable [Facts₀]

def dot_S2x16x2048x64_S2x16x2048x64_S2x16x2048x2048_3_3_2_2_01_01 : DotDims S2x16x2048x64 S2x16x2048x64 S2x16x2048x2048 where
  lhsContracting := [3]
  rhsContracting := [3]
  lhsNonContracting := [2]
  rhsNonContracting := [2]
  lhsBatch := [0, 1]
  rhsBatch := [0, 1]
  wf := dot_S2x16x2048x64_S2x16x2048x64_S2x16x2048x2048_3_3_2_2_01_01_wf
def dot_S2x16x2048x2048_S2x16x2048x64_S2x16x2048x64_3_2_2_3_01_01 : DotDims S2x16x2048x2048 S2x16x2048x64 S2x16x2048x64 where
  lhsContracting := [3]
  rhsContracting := [2]
  lhsNonContracting := [2]
  rhsNonContracting := [3]
  lhsBatch := [0, 1]
  rhsBatch := [0, 1]
  wf := dot_S2x16x2048x2048_S2x16x2048x64_S2x16x2048x64_3_2_2_3_01_01_wf

class Facts : Prop extends Facts₀ where

variable [Facts]
-- ==== Proof.KernelPieces.lean ====
import proofs.«424549_j84774064488741_3_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

/-! ## What one grid point leaves behind, as values

The body has two control cases. On a head's FIRST query tile it builds the head's key matrix (keys and positional keys
side by side) and value matrix in the two scratch buffers, then computes its output block from the two query blocks
and those two matrices as just stored; on the head's SECOND query tile it stores nothing into the scratch and computes
the same expression from the two query blocks and whatever the scratch holds. Each store covers its buffer whole, so
what a buffer holds afterwards is the stored payload itself. -/

namespace Cert.KernelIdeal.Pieces

open Cert.KernelIdeal Cert.KernelIdeal.Gen

variable {F : FTy → Type} [FloatOps F]

theorem hz3 : (![0, 0, 0] : Fin 3 → Nat) = fun _ => 0 := funext fun a => by fin_cases a <;> rfl
theorem hz2 : (![0, 0] : Fin 2 → Nat) = fun _ => 0 := funext fun a => by fin_cases a <;> rfl

/-- Second query tile of a head: the output block is the attention expression of the two query blocks and the
    scratch contents `xs0`, `xs1` found there. -/
theorem out_B (c : Dev nD) (i : grid0.Coords) (arg2 : Memref sig .tc .vmem S1x1024x64 .f32) (harg2 : arg2.IsWhole) (arg3 : Memref sig .tc .vmem S1x2048x64 .f32) (harg3 : arg3.IsWhole) (arg4 : Memref sig .tc .vmem S1x2048x64 .f32) (harg4 : arg4.IsWhole) (arg5 : Memref sig .tc .vmem S1x1024x64 .f32) (harg5 : arg5.IsWhole) (arg6 : Memref sig .tc .vmem S1x2048x64 .f32) (harg6 : arg6.IsWhole) (arg7 : Memref sig .tc .vmem S1x1024x64 .f32) (harg7 : arg7.IsWhole) (arg8 : Memref sig .tc .vmem S2048x128 .bf16) (harg8 : arg8.IsWhole) (arg9 : Memref sig .tc .vmem S2048x64 .bf16) (harg9 : arg9.IsWhole) (hc0 : ¬cond0_0 i)
    (x0 : Vec F S1x1024x64 .f32) (x1 : Vec F S1x2048x64 .f32) (x2 : Vec F S1x2048x64 .f32) (x3 : Vec F S1x1024x64 .f32) (x4 : Vec F S1x2048x64 .f32) (xs0 : Vec F S2048x128 .bf16) (xs1 : Vec F S2048x64 .bf16) :
    out0_B_5 c i arg2 harg2 arg3 harg3 arg4 harg4 arg5 harg5 arg6 harg6 arg7 harg7 arg8 harg8 arg9 harg9 hc0 x0 x1 x2 x3 x4 xs0 xs1 = k0_pay3 x0 x3 xs0 xs1 := by
  unfold out0_B_5
  rw [View.read_writes_eq_canon _ _ _ (cover0_B_5 c i arg2 harg2 arg3 harg3 arg4 harg4 arg5 harg5 arg6 harg6 arg7 harg7 arg8 harg8 arg9 harg9 hc0 x0 x1 x2 x3 x4 xs0 xs1)]
  unfold kernelRun0_B
  dsimp only
  sl_unfold_words
  rw [View.canon_unit_zero hz3]
  simp only [View.readAt_eq_ld, harg2.read_unread, harg5.read_unread, harg8.read_unread, harg9.read_unread,
    View.ld_unit_zero (S := S1x1024x64) hz3, View.ld_unit_zero (S := S2048x128) hz2, View.ld_unit_zero (S := S2048x64) hz2]

/-- First query tile of a head: the key-matrix scratch ends at the concatenated, narrowed key blocks. -/
theorem sout_A_0 (c : Dev nD) (i : grid0.Coords) (arg2 : Memref sig .tc .vmem S1x1024x64 .f32) (harg2 : arg2.IsWhole) (arg3 : Memref sig .tc .vmem S1x2048x64 .f32) (harg3 : arg3.IsWhole) (arg4 : Memref sig .tc .vmem S1x2048x64 .f32) (harg4 : arg4.IsWhole) (arg5 : Memref sig .tc .vmem S1x1024x64 .f32) (harg5 : arg5.IsWhole) (arg6 : Memref sig .tc .vmem S1x2048x64 .f32) (harg6 : arg6.IsWhole) (arg7 : Memref sig .tc .vmem S1x1024x64 .f32) (harg7 : arg7.IsWhole) (arg8 : Memref sig .tc .vmem S2048x128 .bf16) (harg8 : arg8.IsWhole) (arg9 : Memref sig .tc .vmem S2048x64 .bf16) (harg9 : arg9.IsWhole) (hc0 : cond0_0 i)
    (x0 : Vec F S1x1024x64 .f32) (x1 : Vec F S1x2048x64 .f32) (x2 : Vec F S1x2048x64 .f32) (x3 : Vec F S1x1024x64 .f32) (x4 : Vec F S1x2048x64 .f32) :
    sout0_A_0 c i arg2 harg2 arg3 harg3 arg4 harg4 arg5 harg5 arg6 harg6 arg7 harg7 arg8 harg8 arg9 harg9 hc0 x0 x1 x2 x3 x4 = k0_pay1 x1 x4 := by
  unfold sout0_A_0
  rw [View.read_writes_eq_canon _ _ _ (scover0_A_0 c i arg2 harg2 arg3 harg3 arg4 harg4 arg5 harg5 arg6 harg6 arg7 harg7 arg8 harg8 arg9 harg9 hc0 x0 x1 x2 x3 x4)]
  unfold kernelRun0_A
  dsimp only
  sl_unfold_words
  rw [View.canon_unit_zero hz2]
  simp only [View.readAt_eq_ld, harg3.read_unread, harg6.read_unread, View.ld_unit_zero (S := S1x2048x64) hz3]

/-- First query tile of a head: the value-matrix scratch ends at the narrowed value block. -/
theorem sout_A_1 (c : Dev nD) (i : grid0.Coords) (arg2 : Memref sig .tc .vmem S1x1024x64 .f32) (harg2 : arg2.IsWhole) (arg3 : Memref sig .tc .vmem S1x2048x64 .f32) (harg3 : arg3.IsWhole) (arg4 : Memref sig .tc .vmem S1x2048x64 .f32) (harg4 : arg4.IsWhole) (arg5 : Memref sig .tc .vmem S1x1024x64 .f32) (harg5 : arg5.IsWhole) (arg6 : Memref sig .tc .vmem S1x2048x64 .f32) (harg6 : arg6.IsWhole) (arg7 : Memref sig .tc .vmem S1x1024x64 .f32) (harg7 : arg7.IsWhole) (arg8 : Memref sig .tc .vmem S2048x128 .bf16) (harg8 : arg8.IsWhole) (arg9 : Memref sig .tc .vmem S2048x64 .bf16) (harg9 : arg9.IsWhole) (hc0 : cond0_0 i)
    (x0 : Vec F S1x1024x64 .f32) (x1 : Vec F S1x2048x64 .f32) (x2 : Vec F S1x2048x64 .f32) (x3 : Vec F S1x1024x64 .f32) (x4 : Vec F S1x2048x64 .f32) :
    sout0_A_1 c i arg2 harg2 arg3 harg3 arg4 harg4 arg5 harg5 arg6 harg6 arg7 harg7 arg8 harg8 arg9 harg9 hc0 x0 x1 x2 x3 x4 = k0_pay2 x2 := by
  unfold sout0_A_1
  rw [View.read_writes_eq_canon _ _ _ (scover0_A_1 c i arg2 harg2 arg3 harg3 arg4 harg4 arg5 harg5 arg6 harg6 arg7 harg7 arg8 harg8 arg9 harg9 hc0 x0 x1 x2 x3 x4)]
  unfold kernelRun0_A
  dsimp only
  sl_unfold_words
  rw [View.canon_unit_zero hz2]
  simp only [View.readAt_eq_ld, harg4.read_unread, View.ld_unit_zero (S := S1x2048x64) hz3]

/-- First query tile of a head: the output block is the attention expression of the two query blocks and the two
    matrices just stored (the loads of the scratch after its covering stores read the stored payloads back). -/
theorem out_A (c : Dev nD) (i : grid0.Coords) (arg2 : Memref sig .tc .vmem S1x1024x64 .f32) (harg2 : arg2.IsWhole) (arg3 : Memref sig .tc .vmem S1x2048x64 .f32) (harg3 : arg3.IsWhole) (arg4 : Memref sig .tc .vmem S1x2048x64 .f32) (harg4 : arg4.IsWhole) (arg5 : Memref sig .tc .vmem S1x1024x64 .f32) (harg5 : arg5.IsWhole) (arg6 : Memref sig .tc .vmem S1x2048x64 .f32) (harg6 : arg6.IsWhole) (arg7 : Memref sig .tc .vmem S1x1024x64 .f32) (harg7 : arg7.IsWhole) (arg8 : Memref sig .tc .vmem S2048x128 .bf16) (harg8 : arg8.IsWhole) (arg9 : Memref sig .tc .vmem S2048x64 .bf16) (harg9 : arg9.IsWhole) (hc0 : cond0_0 i)
    (x0 : Vec F S1x1024x64 .f32) (x1 : Vec F S1x2048x64 .f32) (x2 : Vec F S1x2048x64 .f32) (x3 : Vec F S1x1024x64 .f32) (x4 : Vec F S1x2048x64 .f32) :
    out0_A_5 c i arg2 harg2 arg3 harg3 arg4 harg4 arg5 harg5 arg6 harg6 arg7 harg7 arg8 harg8 arg9 harg9 hc0 x0 x1 x2 x3 x4 = k0_pay3 x0 x3 (k0_pay1 x1 x4) (k0_pay2 x2) := by
  unfold out0_A_5
  rw [View.read_writes_eq_canon _ _ _ (cover0_A_5 c i arg2 harg2 arg3 harg3 arg4 harg4 arg5 harg5 arg6 harg6 arg7 harg7 arg8 harg8 arg9 harg9 hc0 x0 x1 x2 x3 x4)]
  unfold kernelRun0_A
  dsimp only
  sl_unfold_words
  rw [View.canon_unit_zero hz3]
  simp only [View.readAt_eq_ld, harg2.read_unread, harg3.read_unread, harg4.read_unread, harg5.read_unread, harg6.read_unread,
    View.ld_unit_zero (S := S1x1024x64) hz3, View.ld_unit_zero (S := S1x2048x64) hz3,
    View.readCov_unit_zero (S := S2048x128) _ hz2, View.readCov_unit_zero (S := S2048x64) _ hz2]

end Cert.KernelIdeal.Pieces

end
-- ==== Proof.AttnRow.lean ====
import Idealize.ShloMosaic.PureOps.Ideal
import Idealize.ShloMosaic.PureOps.Ideal.Laws

noncomputable section

open scoped BigOperators

namespace Cert.AttnRow

open Idealize.ShloMosaic

/-! ## One query row of scaled dot-product attention with a content and a positional score, over the extended reals

A query row has a content part `q` and a positional part `qp` (64 entries each); key `k` of 2048 has parts `kr k`,
`kpr k`; the score is `c · ⟨q, kr k⟩ + c · ⟨qp, kpr k⟩`; the weights are `exp (score − row maximum)`; the result at
a value column `v` is the weighted mean of `v` under the normalised weights. -/

/-- The score as ONE contraction of length 128: the query parts scaled first, then multiplied with the key parts,
    the two halves of the contraction summed one after the other. -/
def scoreFused (c : EReal) (q qp k kp : Fin 64 → EReal) : EReal :=
  (∑ e : Fin 64, (q e * c) * k e) + (∑ e : Fin 64, (qp e * c) * kp e)

/-- The score as TWO dot products of length 64, each scaled after its sum. -/
def scoreSplit (c : EReal) (q qp k kp : Fin 64 → EReal) : EReal :=
  (∑ e : Fin 64, q e * k e) * c + (∑ e : Fin 64, qp e * kp e) * c

/-- The row maximum of the scores: the fold of `max` from `⊥` over the 2048 keys. -/
def rowMax (S : Fin 2048 → EReal) : EReal := (Finset.univ : Finset (Fin 2048)).fold max ⊥ S

/-- The unnormalised weight of key `k`: `exp (S k − max S)`. -/
def weight (S : Fin 2048 → EReal) (k : Fin 2048) : EReal := Ideal.exp (S k - rowMax S)

/-- Weighted sum first, then ONE division by the weights' total. -/
def normAfter (S V : Fin 2048 → EReal) : EReal :=
  Ideal.div (∑ k : Fin 2048, weight S k * V k) (∑ k : Fin 2048, weight S k)

/-- Each weight divided by the total first, then the weighted sum. -/
def normBefore (S V : Fin 2048 → EReal) : EReal :=
  ∑ k : Fin 2048, Ideal.div (weight S k) (∑ k' : Fin 2048, weight S k') * V k

/-! ## Coercion of finite sums, and the row maximum of real scores -/

/-- The coercion of a finite sum of reals is the sum of the coercions (induction on the index set; each step is
    `EReal.coe_add`). -/
private theorem coe_sum {ι : Type} (t : Finset ι) (f : ι → ℝ) :
    ((∑ i ∈ t, f i : ℝ) : EReal) = ∑ i ∈ t, (f i : EReal) := by
  classical
  induction t using Finset.induction_on with
  | empty => simp
  | insert a t ha ih => rw [Finset.sum_insert ha, Finset.sum_insert ha, EReal.coe_add, ih]

/-- The row maximum of real scores is a real: it is at least the score of key `0`, which is above `⊥`, and it is
    below `⊤` because `⊥` and every score are. -/
private theorem rowMax_real (s : Fin 2048 → ℝ) : ∃ M : ℝ, rowMax (fun k => (s k : EReal)) = (M : EReal) := by
  have hlt : rowMax (fun k => (s k : EReal)) < ⊤ := by
    unfold rowMax
    rw [Finset.fold_max_lt]
    exact ⟨bot_lt_top, fun x _ => EReal.coe_lt_top (s x)⟩
  have hle : ((s 0 : ℝ) : EReal) ≤ rowMax (fun k => (s k : EReal)) := by
    unfold rowMax
    rw [Finset.le_fold_max]
    exact Or.inr ⟨0, Finset.mem_univ _, le_rfl⟩
  have hbot : rowMax (fun k => (s k : EReal)) ≠ ⊥ :=
    ne_of_gt (lt_of_lt_of_le (EReal.bot_lt_coe (s 0)) hle)
  exact ⟨(rowMax (fun k => (s k : EReal))).toReal, (EReal.coe_toReal (ne_of_lt hlt) hbot).symm⟩

/-! ## The constants -/

/-- The scale `1/√64` is the dyadic `1/8`. -/
theorem ofBits_eighth : Ideal.ofBits .f32 0x3E000000#32 = ((1 / 8 : ℝ) : EReal) := by
  simp [Ideal.ofBits, Ideal.ieee, -EReal.coe_mul]; norm_num

/-- The pattern of `-∞` is the bottom of the extended reals. -/
theorem ofBits_neg_inf : Ideal.ofBits .f32 0xFF800000#32 = (⊥ : EReal) := by
  simp [Ideal.ofBits, Ideal.ieee]

/-! ## The two laws -/

/-- On real entries the fused contraction and the two scaled dot products are one number: the scale moves out
    of each sum (distributivity, which needs finiteness) and the products re-associate. -/
theorem scoreFused_eq_scoreSplit (c : ℝ) (q qp k kp : Fin 64 → ℝ) :
    scoreFused (c : EReal) (fun e => (q e : EReal)) (fun e => (qp e : EReal)) (fun e => (k e : EReal)) (fun e => (kp e : EReal))
      = scoreSplit (c : EReal) (fun e => (q e : EReal)) (fun e => (qp e : EReal)) (fun e => (k e : EReal)) (fun e => (kp e : EReal)) := by
  -- both sides are coercions of real numbers: push the coercion out of the products, the sums and the outer sum
  simp only [scoreFused, scoreSplit, ← EReal.coe_mul, ← coe_sum, ← EReal.coe_add]
  -- in ℝ the scale moves out of each sum and the products re-associate
  congr 1
  rw [Finset.sum_mul, Finset.sum_mul]
  congr 1 <;> exact Finset.sum_congr rfl (fun e _ => by ring)

/-- On real entries a score is a real number. -/
theorem scoreSplit_real (c : ℝ) (q qp k kp : Fin 64 → ℝ) :
    ∃ s : ℝ, scoreSplit (c : EReal) (fun e => (q e : EReal)) (fun e => (qp e : EReal)) (fun e => (k e : EReal)) (fun e => (kp e : EReal)) = (s : EReal) := by
  -- the real number is the same expression read in ℝ
  refine ⟨(∑ e : Fin 64, q e * k e) * c + (∑ e : Fin 64, qp e * kp e) * c, ?_⟩
  simp only [scoreSplit, ← EReal.coe_mul, ← coe_sum, ← EReal.coe_add]

/-- On real scores and real values, dividing the weighted sum by the total is the weighted sum of the divided
    weights: the maximum of finitely many reals is a real, every weight is a positive real, so the total is a
    positive real and division by it distributes over the sum. -/
theorem normAfter_eq_normBefore (s v : Fin 2048 → ℝ) :
    normAfter (fun k => (s k : EReal)) (fun k => (v k : EReal)) = normBefore (fun k => (s k : EReal)) (fun k => (v k : EReal)) := by
  -- the row maximum is a real `M`, so each weight is the positive real `exp (s k − M)`
  obtain ⟨M, hM⟩ := rowMax_real s
  have hw : ∀ k, weight (fun k => (s k : EReal)) k = ((Real.exp (s k - M) : ℝ) : EReal) := by
    intro k
    show Ideal.exp (((s k : ℝ) : EReal) - rowMax (fun k => (s k : EReal))) = _
    rw [hM, ← EReal.coe_sub]
    rfl
  -- the total of the weights is a positive real, hence nonzero
  have hL : (∑ k : Fin 2048, Real.exp (s k - M)) ≠ 0 :=
    ne_of_gt (Finset.sum_pos (fun k _ => Real.exp_pos _) Finset.univ_nonempty)
  -- division by the total is multiplication by its reciprocal; then everything is the coercion of a real
  simp only [normAfter, normBefore, hw, ← coe_sum, Ideal.div_coe hL, ← EReal.coe_mul]
  -- in ℝ: (∑ p_k v_k) · (1/L) = ∑ (p_k · (1/L)) v_k
  rw [EReal.coe_eq_coe_iff, Finset.sum_mul]
  exact Finset.sum_congr rfl (fun k _ => by ring)

/-- THE ROW LAW: for real inputs, the fused-score, normalise-after form and the split-score, normalise-before form
    are the same extended real. -/
theorem attention_row (c : ℝ) (q qp : Fin 64 → ℝ) (K KP : Fin 2048 → Fin 64 → ℝ) (v : Fin 2048 → ℝ) :
    normAfter (fun k => scoreFused (c : EReal) (fun e => (q e : EReal)) (fun e => (qp e : EReal)) (fun e => (K k e : EReal)) (fun e => (KP k e : EReal)))
        (fun k => (v k : EReal))
      = normBefore (fun k => scoreSplit (c : EReal) (fun e => (q e : EReal)) (fun e => (qp e : EReal)) (fun e => (K k e : EReal)) (fun e => (KP k e : EReal)))
        (fun k => (v k : EReal)) := by
  -- every split score is a real number `s k`
  choose s hs using fun k : Fin 2048 => scoreSplit_real c q qp (K k) (KP k)
  -- every fused score is the split score (the score law), hence the same real
  have hF : (fun k : Fin 2048 => scoreFused (c : EReal) (fun e => (q e : EReal)) (fun e => (qp e : EReal))
      (fun e => (K k e : EReal)) (fun e => (KP k e : EReal))) = fun k => ((s k : ℝ) : EReal) :=
    funext fun k => (scoreFused_eq_scoreSplit c q qp (K k) (KP k)).trans (hs k)
  have hS : (fun k : Fin 2048 => scoreSplit (c : EReal) (fun e => (q e : EReal)) (fun e => (qp e : EReal))
      (fun e => (K k e : EReal)) (fun e => (KP k e : EReal))) = fun k => ((s k : ℝ) : EReal) :=
    funext hs
  rw [hF, hS]
  -- on real scores the two normalisations agree
  exact normAfter_eq_normBefore s v

end Cert.AttnRow

end
-- ==== Proof.KernelRow.lean ====
import proofs.«424549_j84774064488741_3_alg».proof.Proof.Gen.KernelIdeal.Skeleton
import proofs.«424549_j84774064488741_3_alg».proof.Proof.AttnRow
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.KernelRow

open Idealize.ShloMosaic Idealize.ShloMosaic.ValueIdx Cert.KernelIdeal Cert.KernelIdeal.Gen Cert.AttnRow

/-! ## The layout operations of the body, read at coordinates -/

/-- A vector of 1024 entries cast to a column `[1024, 1]` reads, at `(r, u)`, entry `r`. -/
private theorem column_cast_apply (x : FVec Ideal S1024 .f32) (h : S1024.ShapeCasts S1024x1) (r : Fin 1024) (u : Fin 1) :
    shapeCast S1024x1 x h (ix2 r u) = x (ix1 r) :=
  shapeCast_apply x h _ _ (by
    have hu : u.val = 0 := by omega
    rw [Shape.rowMajor_val_one, Shape.rowMajor_val_two]
    show r.val = r.val * 1 + u.val
    rw [hu, Nat.mul_one, Nat.add_zero])

/-- A column `[1024, 1]` broadcast along the 2048 keys reads, at `(r, k)`, the column's entry `r`. -/
private theorem column_over_keys_apply (x : FVec Ideal S1024x1 .f32) (h : S1024x1.Broadcasts S1024x2048)
    (r : Fin 1024) (k : Fin 2048) :
    broadcastTo S1024x2048 x h (ix2 r k) = x (ix2 r (0 : Fin 1)) := by
  refine broadcastTo_apply x h (ix2 r k) (ix2 r (0 : Fin 1)) fun ax => ?_
  match ax with
  | ⟨0, _⟩ => rfl
  | ⟨1, _⟩ => rfl

/-- A column `[1024, 1]` broadcast along the 64 value columns reads, at `(r, d)`, the column's entry `r`. -/
private theorem column_over_values_apply (x : FVec Ideal S1024x1 .f32) (h : S1024x1.Broadcasts S1024x64)
    (r : Fin 1024) (d : Fin 64) :
    broadcastTo S1024x64 x h (ix2 r d) = x (ix2 r (0 : Fin 1)) := by
  refine broadcastTo_apply x h (ix2 r d) (ix2 r (0 : Fin 1)) fun ax => ?_
  match ax with
  | ⟨0, _⟩ => rfl
  | ⟨1, _⟩ => rfl

/-- The two query halves side by side: a column of the first half reads the first piece. -/
private theorem query_concat_left (a b : FVec Ideal S1024x64 .bf16)
    (h : Shape.Concatenates [S1024x64, S1024x64] S1024x128 1) (r : Fin 1024) (e : Fin 64) :
    concatenate S1024x128 1 [⟨S1024x64, a⟩, ⟨S1024x64, b⟩] h (ix2 r (⟨e.val, by omega⟩ : Fin 128)) = a (ix2 r e) :=
  concatenate_pair_apply_left 1 a b h _ rfl (ix2 r e) fun c => match c with | ⟨0, _⟩ => rfl | ⟨1, _⟩ => rfl

/-- … and a column of the second half reads the second piece, 64 columns to the left. -/
private theorem query_concat_right (a b : FVec Ideal S1024x64 .bf16)
    (h : Shape.Concatenates [S1024x64, S1024x64] S1024x128 1) (r : Fin 1024) (e : Fin 64) :
    concatenate S1024x128 1 [⟨S1024x64, a⟩, ⟨S1024x64, b⟩] h (ix2 r (⟨64 + e.val, by omega⟩ : Fin 128)) = b (ix2 r e) :=
  concatenate_pair_apply_right 1 a b h _ rfl rfl (ix2 r e)
    (fun c hc => match c, hc with | ⟨0, _⟩, _ => rfl | ⟨1, _⟩, hc => absurd rfl hc)
    (by show e.val + 64 = 64 + e.val; omega)

/-- The two key halves side by side, likewise. -/
private theorem key_concat_left (a b : FVec Ideal S2048x64 .f32)
    (h : Shape.Concatenates [S2048x64, S2048x64] S2048x128 1) (k : Fin 2048) (e : Fin 64) :
    concatenate S2048x128 1 [⟨S2048x64, a⟩, ⟨S2048x64, b⟩] h (ix2 k (⟨e.val, by omega⟩ : Fin 128)) = a (ix2 k e) :=
  concatenate_pair_apply_left 1 a b h _ rfl (ix2 k e) fun c => match c with | ⟨0, _⟩ => rfl | ⟨1, _⟩ => rfl

private theorem key_concat_right (a b : FVec Ideal S2048x64 .f32)
    (h : Shape.Concatenates [S2048x64, S2048x64] S2048x128 1) (k : Fin 2048) (e : Fin 64) :
    concatenate S2048x128 1 [⟨S2048x64, a⟩, ⟨S2048x64, b⟩] h (ix2 k (⟨64 + e.val, by omega⟩ : Fin 128)) = b (ix2 k e) :=
  concatenate_pair_apply_right 1 a b h _ rfl rfl (ix2 k e)
    (fun c hc => match c, hc with | ⟨0, _⟩, _ => rfl | ⟨1, _⟩, hc => absurd rfl hc)
    (by show e.val + 64 = 64 + e.val; omega)

/-- A sum over the 128 contraction positions is the sum over the first 64 plus the sum over the last 64. -/
private theorem sum_halves (f : Fin 128 → EReal) :
    ∑ j : Fin 128, f j
      = (∑ e : Fin 64, f (⟨e.val, by omega⟩ : Fin 128)) + ∑ e : Fin 64, f (⟨64 + e.val, by omega⟩ : Fin 128) :=
  Fin.sum_univ_add (a := 64) (b := 64) f

/-! ## The two row reductions -/

/-- The row sum over the keys: entry `r` is the sum over `k` of the source at `(r, k)`. -/
private theorem row_sum_apply (src : FVec Ideal S1024x2048 .f32) (h : S1024x2048.Reduces [1] S1024)
    (hφ : FKind.Formats .f32) (hacc : (0x00000000#32 : BitVec 32) = FKind.add.neutral .f32 hφ) (r : Fin 1024) :
    multiReduction .add [1] S1024 src 0x00000000#32 h hφ hacc (ix1 r) = ∑ k : Fin 2048, src (ix2 r k) := by
  refine (Ideal.multiReduction_add_single src 0x00000000#32 h hφ hacc (ix1 r)).trans ?_
  refine Finset.sum_congr rfl fun k _ => congrArg src ?_
  funext c
  apply Fin.ext
  match c with
  | ⟨0, _⟩ => rfl
  | ⟨1, _⟩ => rfl

/-- The row maximum over the keys: entry `r` is the fold of `max` from the accumulator's value over the source's row `r`. -/
private theorem row_max_apply (src : FVec Ideal S1024x2048 .f32) (h : S1024x2048.Reduces [1] S1024)
    (hφ : FKind.Formats .f32) (hacc : (0xFF800000#32 : BitVec 32) = FKind.maximumf.neutral .f32 hφ) (r : Fin 1024) :
    multiReduction .maximumf [1] S1024 src 0xFF800000#32 h hφ hacc (ix1 r)
      = (Finset.univ : Finset (Fin 2048)).fold max (Ideal.ofBits .f32 0xFF800000#32) (fun k => src (ix2 r k)) := by
  refine (Ideal.multiReduction_maximumf_single src 0xFF800000#32 h hφ hacc (ix1 r)).trans ?_
  refine congrArg (fun g => (Finset.univ : Finset (Fin 2048)).fold max (Ideal.ofBits .f32 0xFF800000#32) g) ?_
  funext k
  refine congrArg src ?_
  funext c
  apply Fin.ext
  match c with
  | ⟨0, _⟩ => rfl
  | ⟨1, _⟩ => rfl

/-! ## The two products, read at an index

Each `tpu.matmul` into the zero accumulator is, at `(r, c)`, the sum over its one contraction axis of the left operand at
`(r, j)` times the right operand at `(j, c)`. For each product, the left operand's index has the row on its first axis and the
contraction position on its second; the right operand's has the contraction position on its first and the column on its second. -/

private theorem lhs_scores_0 (i : S1024x2048.Idx) (q : dot_S1024x128_S128x2048_S1024x2048_1_0_0_1_n_n.contr.Idx) :
    (dot_S1024x128_S128x2048_S1024x2048_1_0_0_1_n_n.lhsIdx i q 0).val = (i 0).val := by
  unfold DotDims.lhsIdx
  rw [dif_neg (show ¬(0 : Fin S1024x128.rank) ∈ dot_S1024x128_S128x2048_S1024x2048_1_0_0_1_n_n.lhsBatch by decide), dif_pos (show (0 : Fin S1024x128.rank) ∈ dot_S1024x128_S128x2048_S1024x2048_1_0_0_1_n_n.lhsNonContracting by decide)]
  rfl
private theorem lhs_scores_1 (i : S1024x2048.Idx) (q : dot_S1024x128_S128x2048_S1024x2048_1_0_0_1_n_n.contr.Idx) :
    (dot_S1024x128_S128x2048_S1024x2048_1_0_0_1_n_n.lhsIdx i q 1).val = (q ⟨0, by decide⟩).val :=
  dot_S1024x128_S128x2048_S1024x2048_1_0_0_1_n_n.lhsIdx_val_of_single rfl i q
private theorem rhs_scores_0 (i : S1024x2048.Idx) (q : dot_S1024x128_S128x2048_S1024x2048_1_0_0_1_n_n.contr.Idx) :
    (dot_S1024x128_S128x2048_S1024x2048_1_0_0_1_n_n.rhsIdx i q 0).val = (q ⟨0, by decide⟩).val :=
  dot_S1024x128_S128x2048_S1024x2048_1_0_0_1_n_n.rhsIdx_val_of_single rfl i q
private theorem rhs_scores_1 (i : S1024x2048.Idx) (q : dot_S1024x128_S128x2048_S1024x2048_1_0_0_1_n_n.contr.Idx) :
    (dot_S1024x128_S128x2048_S1024x2048_1_0_0_1_n_n.rhsIdx i q 1).val = (i 1).val := by
  unfold DotDims.rhsIdx
  rw [dif_neg (show ¬(1 : Fin S128x2048.rank) ∈ dot_S1024x128_S128x2048_S1024x2048_1_0_0_1_n_n.rhsBatch by decide), dif_pos (show (1 : Fin S128x2048.rank) ∈ dot_S1024x128_S128x2048_S1024x2048_1_0_0_1_n_n.rhsNonContracting by decide)]
  rfl

/-- The scores: queries `[1024, 128]` times transposed keys `[128, 2048]`. -/
private theorem scores_matmul_apply (A : FVec Ideal S1024x128 .bf16) (B : FVec Ideal S128x2048 .bf16) (r : Fin 1024) (c : Fin 2048) :
    matmul dot_S1024x128_S128x2048_S1024x2048_1_0_0_1_n_n none A B (constant (F := Ideal) S1024x2048 .f32 0x00000000#32) (ix2 r c)
      = ∑ j : Fin 128, A (ix2 r j) * B (ix2 j c) := by
  simp only [matmul]
  rw [Ideal.matmul_constant_zero_apply, ← Equiv.sum_comp (contrEquiv1 dot_S1024x128_S128x2048_S1024x2048_1_0_0_1_n_n 128 rfl rfl).symm]
  refine Finset.sum_congr rfl fun j _ => ?_
  have hj := contrEquiv1_symm_val dot_S1024x128_S128x2048_S1024x2048_1_0_0_1_n_n 128 rfl rfl j
  have el : dot_S1024x128_S128x2048_S1024x2048_1_0_0_1_n_n.lhsIdx (ix2 r c) ((contrEquiv1 dot_S1024x128_S128x2048_S1024x2048_1_0_0_1_n_n 128 rfl rfl).symm j) = ix2 r j := funext fun a => Fin.ext (by
    match a with
    | ⟨0, _⟩ => exact lhs_scores_0 _ _
    | ⟨1, _⟩ => exact (lhs_scores_1 _ _).trans hj)
  have er : dot_S1024x128_S128x2048_S1024x2048_1_0_0_1_n_n.rhsIdx (ix2 r c) ((contrEquiv1 dot_S1024x128_S128x2048_S1024x2048_1_0_0_1_n_n 128 rfl rfl).symm j) = ix2 j c := funext fun a => Fin.ext (by
    match a with
    | ⟨0, _⟩ => exact (rhs_scores_0 _ _).trans hj
    | ⟨1, _⟩ => exact rhs_scores_1 _ _)
  rw [el, er]

private theorem lhs_mix_0 (i : S1024x64.Idx) (q : dot_S1024x2048_S2048x64_S1024x64_1_0_0_1_n_n.contr.Idx) :
    (dot_S1024x2048_S2048x64_S1024x64_1_0_0_1_n_n.lhsIdx i q 0).val = (i 0).val := by
  unfold DotDims.lhsIdx
  rw [dif_neg (show ¬(0 : Fin S1024x2048.rank) ∈ dot_S1024x2048_S2048x64_S1024x64_1_0_0_1_n_n.lhsBatch by decide), dif_pos (show (0 : Fin S1024x2048.rank) ∈ dot_S1024x2048_S2048x64_S1024x64_1_0_0_1_n_n.lhsNonContracting by decide)]
  rfl
private theorem lhs_mix_1 (i : S1024x64.Idx) (q : dot_S1024x2048_S2048x64_S1024x64_1_0_0_1_n_n.contr.Idx) :
    (dot_S1024x2048_S2048x64_S1024x64_1_0_0_1_n_n.lhsIdx i q 1).val = (q ⟨0, by decide⟩).val :=
  dot_S1024x2048_S2048x64_S1024x64_1_0_0_1_n_n.lhsIdx_val_of_single rfl i q
private theorem rhs_mix_0 (i : S1024x64.Idx) (q : dot_S1024x2048_S2048x64_S1024x64_1_0_0_1_n_n.contr.Idx) :
    (dot_S1024x2048_S2048x64_S1024x64_1_0_0_1_n_n.rhsIdx i q 0).val = (q ⟨0, by decide⟩).val :=
  dot_S1024x2048_S2048x64_S1024x64_1_0_0_1_n_n.rhsIdx_val_of_single rfl i q
private theorem rhs_mix_1 (i : S1024x64.Idx) (q : dot_S1024x2048_S2048x64_S1024x64_1_0_0_1_n_n.contr.Idx) :
    (dot_S1024x2048_S2048x64_S1024x64_1_0_0_1_n_n.rhsIdx i q 1).val = (i 1).val := by
  unfold DotDims.rhsIdx
  rw [dif_neg (show ¬(1 : Fin S2048x64.rank) ∈ dot_S1024x2048_S2048x64_S1024x64_1_0_0_1_n_n.rhsBatch by decide), dif_pos (show (1 : Fin S2048x64.rank) ∈ dot_S1024x2048_S2048x64_S1024x64_1_0_0_1_n_n.rhsNonContracting by decide)]
  rfl

/-- The weighted values: weights `[1024, 2048]` times values `[2048, 64]`. -/
private theorem mix_matmul_apply (A : FVec Ideal S1024x2048 .bf16) (B : FVec Ideal S2048x64 .bf16) (r : Fin 1024) (c : Fin 64) :
    matmul dot_S1024x2048_S2048x64_S1024x64_1_0_0_1_n_n none A B (constant (F := Ideal) S1024x64 .f32 0x00000000#32) (ix2 r c)
      = ∑ j : Fin 2048, A (ix2 r j) * B (ix2 j c) := by
  simp only [matmul]
  rw [Ideal.matmul_constant_zero_apply, ← Equiv.sum_comp (contrEquiv1 dot_S1024x2048_S2048x64_S1024x64_1_0_0_1_n_n 2048 rfl rfl).symm]
  refine Finset.sum_congr rfl fun j _ => ?_
  have hj := contrEquiv1_symm_val dot_S1024x2048_S2048x64_S1024x64_1_0_0_1_n_n 2048 rfl rfl j
  have el : dot_S1024x2048_S2048x64_S1024x64_1_0_0_1_n_n.lhsIdx (ix2 r c) ((contrEquiv1 dot_S1024x2048_S2048x64_S1024x64_1_0_0_1_n_n 2048 rfl rfl).symm j) = ix2 r j := funext fun a => Fin.ext (by
    match a with
    | ⟨0, _⟩ => exact lhs_mix_0 _ _
    | ⟨1, _⟩ => exact (lhs_mix_1 _ _).trans hj)
  have er : dot_S1024x2048_S2048x64_S1024x64_1_0_0_1_n_n.rhsIdx (ix2 r c) ((contrEquiv1 dot_S1024x2048_S2048x64_S1024x64_1_0_0_1_n_n 2048 rfl rfl).symm j) = ix2 j c := funext fun a => Fin.ext (by
    match a with
    | ⟨0, _⟩ => exact (rhs_mix_0 _ _).trans hj
    | ⟨1, _⟩ => exact rhs_mix_1 _ _)
  rw [el, er]

/-! ## The two cached key-side payloads, read at an entry -/

/-- The cached key matrix: its first 64 columns are the key block's. -/
private theorem cached_keys_left (x1 x4 : Vec Ideal S1x2048x64 .f32) (k : Fin 2048) (e : Fin 64) :
    k0_pay1 (F := Ideal) x1 x4 (ix2 k (⟨e.val, by omega⟩ : Fin 128)) = x1 (ix3 (0 : Fin 1) k e) := by
  unfold k0_pay1
  refine (congrFun (shapeCast_self _ _) _).trans ?_
  refine (truncf_apply (φ := .f32) (ψ := .bf16) _ _ _).trans ?_
  refine (key_concat_left _ _ _ k e).trans ?_
  exact shapeCast_1ab_ab_apply _ _ k e

/-- … and its last 64 columns are the positional-key block's. -/
private theorem cached_keys_right (x1 x4 : Vec Ideal S1x2048x64 .f32) (k : Fin 2048) (e : Fin 64) :
    k0_pay1 (F := Ideal) x1 x4 (ix2 k (⟨64 + e.val, by omega⟩ : Fin 128)) = x4 (ix3 (0 : Fin 1) k e) := by
  unfold k0_pay1
  refine (congrFun (shapeCast_self _ _) _).trans ?_
  refine (truncf_apply (φ := .f32) (ψ := .bf16) _ _ _).trans ?_
  refine (key_concat_right _ _ _ k e).trans ?_
  exact shapeCast_1ab_ab_apply _ _ k e

/-- The cached value matrix is the value block. -/
private theorem cached_values_apply (x2 : Vec Ideal S1x2048x64 .f32) (k : Fin 2048) (d : Fin 64) :
    k0_pay2 (F := Ideal) x2 (ix2 k d) = x2 (ix3 (0 : Fin 1) k d) := by
  unfold k0_pay2
  refine (congrFun (shapeCast_self _ _) _).trans ?_
  refine (truncf_apply (φ := .f32) (ψ := .bf16) _ _ _).trans ?_
  exact shapeCast_1ab_ab_apply _ _ k d

/-! ## The scores and the weights -/

/-- One scaled query half at an entry: the block's entry times the constant. -/
private theorem scaled_query_apply (x : Vec Ideal S1x1024x64 .f32) (h : S1x1024x64.ShapeCasts S1024x64)
    (hb : FTy.bits .bf16 < FTy.bits .f32) (r : Fin 1024) (e : Fin 64) :
    truncf .bf16 (mulf (shapeCast S1024x64 x h) (broadcast S1024x64 (Scalar.ofBits (F := Ideal) .f32 0x3E000000#32))) hb (ix2 r e)
      = x (ix3 (0 : Fin 1) r e) * Ideal.ofBits .f32 0x3E000000#32 := by
  refine (truncf_apply (φ := .f32) (ψ := .bf16) _ hb _).trans ?_
  refine (mulf_apply _ _ _).trans ?_
  exact congrArg (· * Ideal.ofBits .f32 0x3E000000#32) (shapeCast_1ab_ab_apply x h r e)

/-- The score of query row `r` against key `k`: the contraction over the 128 concatenated columns splits into the
    content half and the positional half. -/
private theorem scores_apply (x0 x3 : Vec Ideal S1x1024x64 .f32) (x1 x4 : Vec Ideal S1x2048x64 .f32)
    (hq : S1x1024x64.ShapeCasts S1024x64) (hb : FTy.bits .bf16 < FTy.bits .f32)
    (hc : Shape.Concatenates [S1024x64, S1024x64] S1024x128 1) (ht : S2048x128.Transposes [1, 0] S128x2048)
    (r : Fin 1024) (k : Fin 2048) :
    matmul dot_S1024x128_S128x2048_S1024x2048_1_0_0_1_n_n none
        (concatenate S1024x128 1
          [⟨S1024x64, truncf .bf16 (mulf (shapeCast S1024x64 x0 hq) (broadcast S1024x64 (Scalar.ofBits (F := Ideal) .f32 0x3E000000#32))) hb⟩,
           ⟨S1024x64, truncf .bf16 (mulf (shapeCast S1024x64 x3 hq) (broadcast S1024x64 (Scalar.ofBits (F := Ideal) .f32 0x3E000000#32))) hb⟩] hc)
        (transpose S128x2048 [1, 0] (k0_pay1 (F := Ideal) x1 x4) ht)
        (constant (F := Ideal) S1024x2048 .f32 0x00000000#32) (ix2 r k)
      = scoreFused (Ideal.ofBits .f32 0x3E000000#32)
          (fun e => x0 (ix3 (0 : Fin 1) r e)) (fun e => x3 (ix3 (0 : Fin 1) r e))
          (fun e => x1 (ix3 (0 : Fin 1) k e)) (fun e => x4 (ix3 (0 : Fin 1) k e)) := by
  unfold scoreFused
  refine (scores_matmul_apply _ _ r k).trans ?_
  refine (sum_halves _).trans ?_
  refine congrArg₂ (· + ·) ?_ ?_
  · refine Finset.sum_congr rfl fun e _ => congrArg₂ (· * ·) ?_ ?_
    · exact (query_concat_left _ _ hc r e).trans (scaled_query_apply x0 hq hb r e)
    · exact (transpose_ix2_apply _ ht _ k).trans (cached_keys_left x1 x4 k e)
  · refine Finset.sum_congr rfl fun e _ => congrArg₂ (· * ·) ?_ ?_
    · exact (query_concat_right _ _ hc r e).trans (scaled_query_apply x3 hq hb r e)
    · exact (transpose_ix2_apply _ ht _ k).trans (cached_keys_right x1 x4 k e)

/-- The unnormalised weights: `exp` of a score less its row's maximum, the maximum being the fold of `max` from `⊥`. -/
private theorem weights_apply (sc : FVec Ideal S1024x2048 .f32) (hR : S1024x2048.Reduces [1] S1024) (hφ : FKind.Formats .f32)
    (hacc : (0xFF800000#32 : BitVec 32) = FKind.maximumf.neutral .f32 hφ) (hC : S1024.ShapeCasts S1024x1)
    (hB : S1024x1.Broadcasts S1024x2048) (r : Fin 1024) (k : Fin 2048) :
    exp (subf sc (broadcastTo S1024x2048 (shapeCast S1024x1
        (multiReduction .maximumf [1] S1024 sc 0xFF800000#32 hR hφ hacc) hC) hB)) (ix2 r k)
      = weight (fun k' => sc (ix2 r k')) k := by
  unfold weight rowMax
  show Ideal.exp (sc (ix2 r k) - broadcastTo S1024x2048 _ hB (ix2 r k)) = _
  refine congrArg (fun m => Ideal.exp (sc (ix2 r k) - m)) ?_
  refine (column_over_keys_apply _ hB r k).trans ?_
  refine (column_cast_apply _ hC r 0).trans ?_
  refine (row_max_apply sc hR hφ hacc r).trans ?_
  rw [ofBits_neg_inf]

/-- The body's output payload, fed the two cached key-side payloads, read at row `r` and column `d` of its block:
    the fused-score, normalise-after row form over row `r` of the two query blocks, the rows of the two key blocks
    and column `d` of the value block. -/
theorem pay3_apply (x0 x3 : Vec Ideal S1x1024x64 .f32) (x1 x2 x4 : Vec Ideal S1x2048x64 .f32)
    (r : Fin 1024) (d : Fin 64) :
    k0_pay3 (F := Ideal) x0 x3 (k0_pay1 (F := Ideal) x1 x4) (k0_pay2 (F := Ideal) x2) (ix3 (0 : Fin 1) r d)
      = normAfter
          (fun k => scoreFused (Ideal.ofBits .f32 0x3E000000#32)
            (fun e => x0 (ix3 (0 : Fin 1) r e)) (fun e => x3 (ix3 (0 : Fin 1) r e))
            (fun e => x1 (ix3 (0 : Fin 1) k e)) (fun e => x4 (ix3 (0 : Fin 1) k e)))
          (fun k => x2 (ix3 (0 : Fin 1) k d)) := by
  unfold k0_pay3 normAfter
  -- the leading unit axis, then the division entry by entry
  refine (shapeCast_ab_1ab_apply _ _ (0 : Fin 1) r d).trans ?_
  refine (divf_apply _ _ _).trans ?_
  refine congrArg₂ Ideal.div ?_ ?_
  · -- the numerator: the weights times the cached values, summed over the keys
    refine (mix_matmul_apply _ _ r d).trans ?_
    refine Finset.sum_congr rfl fun k _ => congrArg₂ (· * ·) ?_ ?_
    · refine (truncf_apply (φ := .f32) (ψ := .bf16) _ _ _).trans ?_
      refine (weights_apply _ _ _ _ _ _ r k).trans ?_
      exact congrArg (fun S => weight S k) (funext fun k' => scores_apply x0 x3 x1 x4 _ _ _ _ r k')
    · exact cached_values_apply x2 k d
  · -- the denominator: the weights summed over the keys
    refine (column_over_values_apply _ _ r d).trans ?_
    refine (column_cast_apply _ _ r 0).trans ?_
    refine (row_sum_apply _ _ _ _ r).trans ?_
    refine Finset.sum_congr rfl fun k _ => ?_
    refine (weights_apply _ _ _ _ _ _ r k).trans ?_
    exact congrArg (fun S => weight S k) (funext fun k' => scores_apply x0 x3 x1 x4 _ _ _ _ r k')

end Cert.KernelIdeal.KernelRow

end
-- ==== Proof.KernelValue.lean ====
import proofs.«424549_j84774064488741_3_alg».proof.Proof.KernelPieces
import proofs.«424549_j84774064488741_3_alg».proof.Proof.KernelRow
import Idealize.ShloMosaic.Lib.Pipeline.Value
import Idealize.ShloMosaic.Lib.ValueIdx
import Idealize.ShloMosaic.Lib.StableHlo.Run
import Idealize.ShloMosaic.Lib.Tactic

noncomputable section

open Idealize.ShloMosaic Idealize.ShloMosaic.TcCoe Idealize.SL.Sem Idealize.ShloMosaic.ValueIdx
open Idealize.ShloMosaic.Pipeline (Dat)

/-! ## The kernel's result array

The grid has 64 points: point `t` works on head `t / 2` (of 32 = 2 batches × 16 heads) and on query tile `t % 2` (rows
`1024 · (t % 2)` to `1024 · (t % 2) + 1023` of that head's 2048 queries). The key-side windows hold the head's whole
key, positional-key and value matrices, the same block at both points of a head. -/

namespace Cert.KernelIdeal.Value

open Cert.KernelIdeal Cert.KernelIdeal.Gen Cert.AttnRow

variable {F : FTy → Type} [FloatOps F]
variable (m : (ℓ : Loc nD τ sig) → Buf (Elt F) ℓ) (ρ : Dev nD → PrngReg)

/-- The block indices of the six windows at grid point `t`: head `t / 2` on the leading axis; query tile `t % 2` on
    the row axis of the query-side and output windows, `0` for the key-side ones; `0` on the last axis. -/
theorem idx_facts : ∀ t : Fin cfg0.N,
    (win0_0.index t (0 : Fin 3) = t.val / 2 ∧ win0_0.index t (1 : Fin 3) = t.val % 2 ∧ win0_0.index t (2 : Fin 3) = 0)
    ∧ (win0_1.index t (0 : Fin 3) = t.val / 2 ∧ win0_1.index t (1 : Fin 3) = 0 ∧ win0_1.index t (2 : Fin 3) = 0)
    ∧ (win0_2.index t (0 : Fin 3) = t.val / 2 ∧ win0_2.index t (1 : Fin 3) = 0 ∧ win0_2.index t (2 : Fin 3) = 0)
    ∧ (win0_3.index t (0 : Fin 3) = t.val / 2 ∧ win0_3.index t (1 : Fin 3) = t.val % 2 ∧ win0_3.index t (2 : Fin 3) = 0)
    ∧ (win0_4.index t (0 : Fin 3) = t.val / 2 ∧ win0_4.index t (1 : Fin 3) = 0 ∧ win0_4.index t (2 : Fin 3) = 0)
    ∧ (win0_5.index t (0 : Fin 3) = t.val / 2 ∧ win0_5.index t (1 : Fin 3) = t.val % 2 ∧ win0_5.index t (2 : Fin 3) = 0) :=
  (by decide +kernel : ∀ t : Fin grid0.N, _)

theorem N64 : cfg0.N = 64 := N_0

/-- The head a grid point works on. -/
def headOf (t : Fin cfg0.N) : Fin 32 := ⟨t.val / 2, by have := t.isLt; have := N64; omega⟩

/-- The query row, within its head, of row `r` of the query tile at point `t`. -/
def qrowOf (t : Fin cfg0.N) (r : Fin 1024) : Fin 2048 := ⟨(t.val % 2) * 1024 + r.val, by have := r.isLt; omega⟩

/-- The first grid point of the head of `t`: where that head's key and value matrices are cached. -/
def headPt (t : Fin cfg0.N) : Fin cfg0.N := ⟨2 * (t.val / 2), by have := t.isLt; have := N64; omega⟩

/-- The five input blocks at a point, at their literal shapes. -/
abbrev qblk (c : Dev nD) (t : Fin cfg0.N) : Vec F S1x1024x64 .f32 := iblk m c 0 t
abbrev kblk (c : Dev nD) (t : Fin cfg0.N) : Vec F S1x2048x64 .f32 := iblk m c 1 t
abbrev vblk (c : Dev nD) (t : Fin cfg0.N) : Vec F S1x2048x64 .f32 := iblk m c 2 t
abbrev qpblk (c : Dev nD) (t : Fin cfg0.N) : Vec F S1x1024x64 .f32 := iblk m c 3 t
abbrev kpblk (c : Dev nD) (t : Fin cfg0.N) : Vec F S1x2048x64 .f32 := iblk m c 4 t

/-- Row `r` of the query tile at `t` is row `1024 · (t % 2) + r` of head `t / 2` of the query array. -/
theorem qblk_apply (c : Dev nD) (t : Fin cfg0.N) (r : Fin 1024) (e : Fin 64) :
    qblk m c t (ix3 (0 : Fin 1) r e) = V m c main_v0 (ix3 (headOf t) (qrowOf t r) e) := by
  obtain ⟨h0, h1, h2⟩ := (idx_facts t).1
  unfold qblk iblk
  rw [View.read_apply]
  show V m c main_v0 _ = V m c main_v0 _
  congr 1
  funext a
  apply Fin.ext
  match a with
  | ⟨0, _⟩ => show win0_0.index t 0 * 1 + 1 * 0 = t.val / 2; rw [h0]; omega
  | ⟨1, _⟩ => show win0_0.index t 1 * 1024 + 1 * r.val = (t.val % 2) * 1024 + r.val; rw [h1]; omega
  | ⟨2, _⟩ => show win0_0.index t 2 * 64 + 1 * e.val = e.val; rw [h2]; omega

/-- The key block at `t` is the whole key matrix of head `t / 2`. -/
theorem kblk_apply (c : Dev nD) (t : Fin cfg0.N) (r : Fin 2048) (e : Fin 64) :
    kblk m c t (ix3 (0 : Fin 1) r e) = V m c main_v1 (ix3 (headOf t) r e) := by
  obtain ⟨h0, h1, h2⟩ := (idx_facts t).2.1
  unfold kblk iblk
  rw [View.read_apply]
  show V m c main_v1 _ = V m c main_v1 _
  congr 1
  funext a
  apply Fin.ext
  match a with
  | ⟨0, _⟩ => show win0_1.index t 0 * 1 + 1 * 0 = t.val / 2; rw [h0]; omega
  | ⟨1, _⟩ => show win0_1.index t 1 * 2048 + 1 * r.val = r.val; rw [h1]; omega
  | ⟨2, _⟩ => show win0_1.index t 2 * 64 + 1 * e.val = e.val; rw [h2]; omega

/-- The value block at `t` is the whole value matrix of head `t / 2`. -/
theorem vblk_apply (c : Dev nD) (t : Fin cfg0.N) (r : Fin 2048) (e : Fin 64) :
    vblk m c t (ix3 (0 : Fin 1) r e) = V m c main_v2 (ix3 (headOf t) r e) := by
  obtain ⟨h0, h1, h2⟩ := (idx_facts t).2.2.1
  unfold vblk iblk
  rw [View.read_apply]
  show V m c main_v2 _ = V m c main_v2 _
  congr 1
  funext a
  apply Fin.ext
  match a with
  | ⟨0, _⟩ => show win0_2.index t 0 * 1 + 1 * 0 = t.val / 2; rw [h0]; omega
  | ⟨1, _⟩ => show win0_2.index t 1 * 2048 + 1 * r.val = r.val; rw [h1]; omega
  | ⟨2, _⟩ => show win0_2.index t 2 * 64 + 1 * e.val = e.val; rw [h2]; omega

/-- Row `r` of the positional-query tile at `t` is row `1024 · (t % 2) + r` of head `t / 2`. -/
theorem qpblk_apply (c : Dev nD) (t : Fin cfg0.N) (r : Fin 1024) (e : Fin 64) :
    qpblk m c t (ix3 (0 : Fin 1) r e) = V m c main_v3 (ix3 (headOf t) (qrowOf t r) e) := by
  obtain ⟨h0, h1, h2⟩ := (idx_facts t).2.2.2.1
  unfold qpblk iblk
  rw [View.read_apply]
  show V m c main_v3 _ = V m c main_v3 _
  congr 1
  funext a
  apply Fin.ext
  match a with
  | ⟨0, _⟩ => show win0_3.index t 0 * 1 + 1 * 0 = t.val / 2; rw [h0]; omega
  | ⟨1, _⟩ => show win0_3.index t 1 * 1024 + 1 * r.val = (t.val % 2) * 1024 + r.val; rw [h1]; omega
  | ⟨2, _⟩ => show win0_3.index t 2 * 64 + 1 * e.val = e.val; rw [h2]; omega

/-- The positional-key block at `t` is the whole positional-key matrix of head `t / 2`. -/
theorem kpblk_apply (c : Dev nD) (t : Fin cfg0.N) (r : Fin 2048) (e : Fin 64) :
    kpblk m c t (ix3 (0 : Fin 1) r e) = V m c main_v4 (ix3 (headOf t) r e) := by
  obtain ⟨h0, h1, h2⟩ := (idx_facts t).2.2.2.2.1
  unfold kpblk iblk
  rw [View.read_apply]
  show V m c main_v4 _ = V m c main_v4 _
  congr 1
  funext a
  apply Fin.ext
  match a with
  | ⟨0, _⟩ => show win0_4.index t 0 * 1 + 1 * 0 = t.val / 2; rw [h0]; omega
  | ⟨1, _⟩ => show win0_4.index t 1 * 2048 + 1 * r.val = r.val; rw [h1]; omega
  | ⟨2, _⟩ => show win0_4.index t 2 * 64 + 1 * e.val = e.val; rw [h2]; omega

/-! ### The host's reshapes before the region: `[2, 16, 2048, 64]` read as `[32, 2048, 64]` -/

theorem V_v0 (c : Dev nD) : (V m c main_v0 : S32x2048x64.Idx → Elt F .f32)
    = shapeCast S32x2048x64 (m ((c : Thread nD τ).loc main_arg0)) shapeCasts_S2x16x2048x64_S32x2048x64 := by
  show StableHlo.after hostOps0 (fun b => m (c, b)) (Proc.devRef .tc main_v0) = _
  after_results
  rfl

theorem V_v1 (c : Dev nD) : (V m c main_v1 : S32x2048x64.Idx → Elt F .f32)
    = shapeCast S32x2048x64 (m ((c : Thread nD τ).loc main_arg1)) shapeCasts_S2x16x2048x64_S32x2048x64 := by
  show StableHlo.after hostOps0 (fun b => m (c, b)) (Proc.devRef .tc main_v1) = _
  after_results
  rfl

theorem V_v2 (c : Dev nD) : (V m c main_v2 : S32x2048x64.Idx → Elt F .f32)
    = shapeCast S32x2048x64 (m ((c : Thread nD τ).loc main_arg2)) shapeCasts_S2x16x2048x64_S32x2048x64 := by
  show StableHlo.after hostOps0 (fun b => m (c, b)) (Proc.devRef .tc main_v2) = _
  after_results
  rfl

theorem V_v3 (c : Dev nD) : (V m c main_v3 : S32x2048x64.Idx → Elt F .f32)
    = shapeCast S32x2048x64 (m ((c : Thread nD τ).loc main_arg3)) shapeCasts_S2x16x2048x64_S32x2048x64 := by
  show StableHlo.after hostOps0 (fun b => m (c, b)) (Proc.devRef .tc main_v3) = _
  after_results
  rfl

theorem V_v4 (c : Dev nD) : (V m c main_v4 : S32x2048x64.Idx → Elt F .f32)
    = shapeCast S32x2048x64 (m ((c : Thread nD τ).loc main_arg4)) shapeCasts_S2x16x2048x64_S32x2048x64 := by
  show StableHlo.after hostOps0 (fun b => m (c, b)) (Proc.devRef .tc main_v4) = _
  after_results
  rfl

/-- Batch `b`, head `h` is row `16 b + h` of the merged axis. -/
def mergeBH (b : Fin 2) (h : Fin 16) : Fin 32 := ⟨b.val * 16 + h.val, by have := b.isLt; have := h.isLt; omega⟩

/-- The merging reshape read at an index: the same row-major position. -/
theorem merge_apply {α : Type} (x : S2x16x2048x64.Idx → α) (b : Fin 2) (h : Fin 16) (s : Fin 2048) (e : Fin 64) :
    shapeCast S32x2048x64 x shapeCasts_S2x16x2048x64_S32x2048x64 (ix3 (mergeBH b h) s e) = x (ix4 b h s e) := by
  refine shapeCast_apply x _ _ _ ?_
  rw [Shape.rowMajor_val_four, Shape.rowMajor_val_three]
  show ((b.val * 16 + h.val) * 2048 + s.val) * 64 + e.val = ((b.val * 16 + h.val) * 2048 + s.val) * 64 + e.val
  rfl

/-- The splitting reshape after the region read at an index. -/
theorem split_apply {α : Type} (x : S32x2048x64.Idx → α) (b : Fin 2) (h : Fin 16) (s : Fin 2048) (e : Fin 64) :
    shapeCast S2x16x2048x64 x shapeCasts_S32x2048x64_S2x16x2048x64 (ix4 b h s e) = x (ix3 (mergeBH b h) s e) := by
  refine shapeCast_apply x _ _ _ ?_
  rw [Shape.rowMajor_val_four, Shape.rowMajor_val_three]
  show ((b.val * 16 + h.val) * 2048 + s.val) * 64 + e.val = ((b.val * 16 + h.val) * 2048 + s.val) * 64 + e.val
  rfl

/-! ### What the staging buffer and the two scratch buffers hold after each point -/

/-- The head's cached key matrix: keys and positional keys side by side, from the blocks at the head's first point. -/
abbrev keyMat (c : Dev nD) (t : Fin cfg0.N) : FVec F S2048x128 .bf16 := k0_pay1 (kblk m c (headPt t)) (kpblk m c (headPt t))
/-- The head's cached value matrix. -/
abbrev valMat (c : Dev nD) (t : Fin cfg0.N) : FVec F S2048x64 .bf16 := k0_pay2 (vblk m c (headPt t))
/-- The output block of point `t`: the attention expression of its two query tiles and its head's cached matrices. -/
abbrev outBlk (c : Dev nD) (t : Fin cfg0.N) : FVec F S1x1024x64 .f32 := k0_pay3 (qblk m c t) (qpblk m c t) (keyMat m c t) (valMat m c t)

/-- At a head's first point the body caches the two matrices and computes from them. -/
theorem outsAt_even (c : Dev nD) (t : Fin cfg0.N) (h0 : t.val % 2 = 0) :
    outsAt0 m c t.val t.isLt = (outBlk m c t, keyMat m c t, valMat m c t) := by
  have e : headPt t = t := Fin.ext (by show 2 * (t.val / 2) = t.val; omega)
  rw [outsAt0_A m c t h0]
  unfold outBlk keyMat valMat qblk qpblk kblk kpblk vblk
  rw [e]
  simp only [Prod.mk.injEq]
  exact ⟨Pieces.out_A c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr h0) (iblk m c 0 t) (iblk m c 1 t) (iblk m c 2 t) (iblk m c 3 t) (iblk m c 4 t),
    Pieces.sout_A_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr h0) (iblk m c 0 t) (iblk m c 1 t) (iblk m c 2 t) (iblk m c 3 t) (iblk m c 4 t),
    Pieces.sout_A_1 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr h0) (iblk m c 0 t) (iblk m c 1 t) (iblk m c 2 t) (iblk m c 3 t) (iblk m c 4 t)⟩

/-- At a head's second point the scratch still holds what the first point cached, and the body computes from it. -/
theorem outsAt_odd (c : Dev nD) (t : Fin cfg0.N) (h0 : ¬t.val % 2 = 0) :
    outsAt0 m c t.val t.isLt = (outBlk m c t, keyMat m c t, valMat m c t) := by
  have hpos : t.val - 1 < cfg0.N := Nat.lt_of_le_of_lt (Nat.sub_le _ _) t.isLt
  have hprev := outsAt_even m c ⟨t.val - 1, hpos⟩ (by show (t.val - 1) % 2 = 0; omega)
  have e : headPt ⟨t.val - 1, hpos⟩ = headPt t := Fin.ext (by show 2 * ((t.val - 1) / 2) = 2 * (t.val / 2); omega)
  have h1 : (outsAt0 m c (t.val - 1) hpos).2.1 = keyMat m c t := by
    rw [show outsAt0 m c (t.val - 1) hpos = _ from hprev]; dsimp only; unfold keyMat; rw [e]
  have h2 : (outsAt0 m c (t.val - 1) hpos).2.2 = valMat m c t := by
    rw [show outsAt0 m c (t.val - 1) hpos = _ from hprev]; dsimp only; unfold valMat; rw [e]
  rw [outsAt0_B m c t h0, h1, h2]
  simp only [Prod.mk.injEq]
  exact ⟨Pieces.out_B c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) (iblk m c 0 t) (iblk m c 1 t) (iblk m c 2 t) (iblk m c 3 t) (iblk m c 4 t) (keyMat m c t) (valMat m c t), rfl, rfl⟩

/-- After every point: the output block of that point, and the head's two cached matrices. -/
theorem outsAt_eq (c : Dev nD) (t : Fin cfg0.N) :
    outsAt0 m c t.val t.isLt = (outBlk m c t, keyMat m c t, valMat m c t) := by
  by_cases h0 : t.val % 2 = 0
  · exact outsAt_even m c t h0
  · exact outsAt_odd m c t h0

/-! ## At the ideal instance: every element of the result -/

section AtIdeal

variable (m : (ℓ : Loc nD τ sig) → Buf (Elt Ideal) ℓ) (ρ : Dev nD → PrngReg)

/-- The attention row form over the five arrays with batch and head merged: entry (head `bh`, query `s`, column `d`). -/
def row3 (A0 A1 A2 A3 A4 : S32x2048x64.Idx → EReal) (bh : Fin 32) (s : Fin 2048) (d : Fin 64) : EReal :=
  normAfter
    (fun k => scoreFused (Ideal.ofBits .f32 0x3E000000#32) (fun e => A0 (ix3 bh s e)) (fun e => A3 (ix3 bh s e))
      (fun e => A1 (ix3 bh k e)) (fun e => A4 (ix3 bh k e)))
    (fun k => A2 (ix3 bh k d))

/-- The same over the five argument arrays as launched: entry (batch `b`, head `h`, query `s`, column `d`). -/
def row4 (A0 A1 A2 A3 A4 : S2x16x2048x64.Idx → EReal) (b : Fin 2) (h : Fin 16) (s : Fin 2048) (d : Fin 64) : EReal :=
  normAfter
    (fun k => scoreFused (Ideal.ofBits .f32 0x3E000000#32) (fun e => A0 (ix4 b h s e)) (fun e => A3 (ix4 b h s e))
      (fun e => A1 (ix4 b h k e)) (fun e => A4 (ix4 b h k e)))
    (fun k => A2 (ix4 b h k d))

theorem headOf_headPt (t : Fin cfg0.N) : headOf (headPt t) = headOf t :=
  Fin.ext (by show 2 * (t.val / 2) / 2 = t.val / 2; omega)

/-- Row `r`, column `d` of the output block at `t`: the row form at head `t / 2`, query `1024 · (t % 2) + r`. -/
theorem outBlk_apply (c : Dev nD) (t : Fin cfg0.N) (r : Fin 1024) (d : Fin 64) :
    outBlk m c t (ix3 (0 : Fin 1) r d)
      = row3 (V m c main_v0) (V m c main_v1) (V m c main_v2) (V m c main_v3) (V m c main_v4) (headOf t) (qrowOf t r) d := by
  refine (KernelRow.pay3_apply (qblk m c t) (qpblk m c t) (kblk m c (headPt t)) (vblk m c (headPt t)) (kpblk m c (headPt t)) r d).trans ?_
  unfold row3
  simp only [qblk_apply, qpblk_apply, kblk_apply, kpblk_apply, vblk_apply, headOf_headPt]

/-- An element the write-back of point `t` puts at array index (head `bh`, query `s`, column `d`) is the row form there. -/
theorem flushed_apply (c : Dev nD) (t : Fin cfg0.N) (y : ((cfg0.win 5).xblock (cfg0.grid.coords t)).Idx)
    (bh : Fin 32) (s : Fin 2048) (d : Fin 64) (hy : ((cfg0.win 5).blk t).view.emb y = ix3 bh s d) :
    (dats m 0 c).flushed 5 t y
      = row3 (V m c main_v0) (V m c main_v1) (V m c main_v2) (V m c main_v3) (V m c main_v4) bh s d := by
  obtain ⟨h0, h1, h2⟩ := (idx_facts t).2.2.2.2.2
  have e0 : win0_5.index t 0 * 1 + 1 * (y 0).val = bh.val := congrArg (fun i : S32x2048x64.Idx => (i 0).val) hy
  have e1 : win0_5.index t 1 * 1024 + 1 * (y 1).val = s.val := congrArg (fun i : S32x2048x64.Idx => (i 1).val) hy
  have e2 : win0_5.index t 2 * 64 + 1 * (y 2).val = d.val := congrArg (fun i : S32x2048x64.Idx => (i 2).val) hy
  have y0 : (y 0).val < 1 := (y 0).isLt
  have y1 : (y 1).val < 1024 := (y 1).isLt
  have y2 : (y 2).val < 64 := (y 2).isLt
  have hfl : (dats m 0 c).flushed 5 t y = outBlk m c t (ix3 (0 : Fin 1) ⟨(y 1).val, y1⟩ ⟨(y 2).val, y2⟩) := by
    show ((dats m 0 c).after 5 t) (win0_5.xinj (grid0.coords t) y) = _
    rw [after0_5, outsAt_eq]
    show outBlk m c t (win0_5.xinj (grid0.coords t) y) = _
    congr 1
    funext a
    apply Fin.ext
    match a with
    | ⟨0, _⟩ => show (y 0).val = 0; omega
    | ⟨1, _⟩ => rfl
    | ⟨2, _⟩ => rfl
  rw [hfl, outBlk_apply]
  have hb : headOf t = bh := Fin.ext (by show t.val / 2 = bh.val; rw [h0] at e0; omega)
  have hs : qrowOf t ⟨(y 1).val, y1⟩ = s := Fin.ext (by show (t.val % 2) * 1024 + (y 1).val = s.val; rw [h1] at e1; omega)
  have hd : (⟨(y 2).val, y2⟩ : Fin 64) = d := Fin.ext (by show (y 2).val = d.val; rw [h2] at e2; omega)
  rw [hb, hs, hd]

/-- Every element of the kernel's output array after the region: each lies in the block of exactly the point of its
    head and query tile, whose write-back put the row form there. -/
theorem arr5_apply (c : Dev nD) (bh : Fin 32) (s : Fin 2048) (d : Fin 64) :
    (dats m 0 c).arrAt 5 cfg0.N (ix3 bh s d)
      = row3 (V m c main_v0) (V m c main_v1) (V m c main_v2) (V m c main_v3) (V m c main_v4) bh s d := by
  refine (dats m 0 c).arrAt_forall_of_cover 5
    (fun i v => ∀ (bh : Fin 32) (s : Fin 2048) (d : Fin 64), i = ix3 bh s d →
      v = row3 (V m c main_v0) (V m c main_v1) (V m c main_v2) (V m c main_v3) (V m c main_v4) bh s d)
    ?_ ?_ (ix3 bh s d) bh s d rfl
  · intro t _ y bh s d hy
    exact flushed_apply m c t y bh s d hy
  · intro i
    obtain ⟨bh, s, d, rfl⟩ : ∃ (bh : Fin 32) (s : Fin 2048) (d : Fin 64), i = ix3 bh s d := ⟨i 0, i 1, i 2, eq_ix3 i⟩
    have hN := N64
    have hbh := bh.isLt
    have hs := s.isLt
    let t : Fin cfg0.N := ⟨2 * bh.val + s.val / 1024, by omega⟩
    obtain ⟨h0, h1, h2⟩ := (idx_facts t).2.2.2.2.2
    refine ⟨t, flush0_5 t, ?_⟩
    show ix3 bh s d ∈ ((View.whole main_v5).slice (win0_5.rect t)).set
    rw [View.set_slice_whole, Rect.mem_set_unit]
    intro a
    have tv : t.val = 2 * bh.val + s.val / 1024 := rfl
    match a with
    | ⟨0, _⟩ =>
      show win0_5.index t 0 * 1 ≤ bh.val ∧ bh.val < win0_5.index t 0 * 1 + 1
      rw [h0]; omega
    | ⟨1, _⟩ =>
      show win0_5.index t 1 * 1024 ≤ s.val ∧ s.val < win0_5.index t 1 * 1024 + 1024
      rw [h1]; omega
    | ⟨2, _⟩ =>
      show win0_5.index t 2 * 64 ≤ d.val ∧ d.val < win0_5.index t 2 * 64 + 64
      rw [h2]; have := d.isLt; omega

/-- The reshape after the region: the program's result is the output array with batch and head split again. -/
theorem tail_eq (c : Dev nD) :
    (Pipeline.afterTail₀ cfgs (dats m) 0 (V0 m) [hostOps1] c main_v6 : S2x16x2048x64.Idx → EReal)
      = shapeCast S2x16x2048x64 ((dats m 0 c).arrAt 5 cfg0.N) shapeCasts_S32x2048x64_S2x16x2048x64 := by
  unfold Pipeline.afterTail₀
  show StableHlo.after hostOps1 _ (Proc.devRef .tc main_v6) = _
  after_results
  have hw : Pipeline.withArrays (cfgs 0).spec c (V0 m c) (fun w => (dats m 0 c).arrAt w (cfgs 0).N) (Proc.devRef .tc main_v5)
      = (dats m 0 c).arrAt 5 cfg0.N := Pipeline.withArrays_arr spec0 launch0.win.arr_inj c _ _ 5
  funext i
  show shapeCast S2x16x2048x64 (Pipeline.withArrays (cfgs 0).spec c (V0 m c) (fun w => (dats m 0 c).arrAt w (cfgs 0).N) (Proc.devRef .tc main_v5)) shapeCasts_S32x2048x64_S2x16x2048x64 i = _
  rw [hw]

/-- Every element of the program's result: the row form over the five argument arrays as launched. -/
theorem result_apply (c : Dev nD) (b : Fin 2) (h : Fin 16) (s : Fin 2048) (d : Fin 64) :
    (Pipeline.afterTail₀ cfgs (dats m) 0 (V0 m) [hostOps1] c main_v6 : S2x16x2048x64.Idx → EReal) (ix4 b h s d)
      = row4 (m ((c : Thread nD τ).loc main_arg0)) (m ((c : Thread nD τ).loc main_arg1)) (m ((c : Thread nD τ).loc main_arg2))
          (m ((c : Thread nD τ).loc main_arg3)) (m ((c : Thread nD τ).loc main_arg4)) b h s d := by
  rw [tail_eq, split_apply, arr5_apply]
  unfold row3 row4
  have e0 : ∀ (s' : Fin 2048) (e : Fin 64), (V m c main_v0 : S32x2048x64.Idx → EReal) (ix3 (mergeBH b h) s' e)
      = m ((c : Thread nD τ).loc main_arg0) (ix4 b h s' e) :=
    fun s' e => (congrFun (V_v0 m c) _).trans (merge_apply _ b h s' e)
  have e1 : ∀ (s' : Fin 2048) (e : Fin 64), (V m c main_v1 : S32x2048x64.Idx → EReal) (ix3 (mergeBH b h) s' e)
      = m ((c : Thread nD τ).loc main_arg1) (ix4 b h s' e) :=
    fun s' e => (congrFun (V_v1 m c) _).trans (merge_apply _ b h s' e)
  have e2 : ∀ (s' : Fin 2048) (e : Fin 64), (V m c main_v2 : S32x2048x64.Idx → EReal) (ix3 (mergeBH b h) s' e)
      = m ((c : Thread nD τ).loc main_arg2) (ix4 b h s' e) :=
    fun s' e => (congrFun (V_v2 m c) _).trans (merge_apply _ b h s' e)
  have e3 : ∀ (s' : Fin 2048) (e : Fin 64), (V m c main_v3 : S32x2048x64.Idx → EReal) (ix3 (mergeBH b h) s' e)
      = m ((c : Thread nD τ).loc main_arg3) (ix4 b h s' e) :=
    fun s' e => (congrFun (V_v3 m c) _).trans (merge_apply _ b h s' e)
  have e4 : ∀ (s' : Fin 2048) (e : Fin 64), (V m c main_v4 : S32x2048x64.Idx → EReal) (ix3 (mergeBH b h) s' e)
      = m ((c : Thread nD τ).loc main_arg4) (ix4 b h s' e) :=
    fun s' e => (congrFun (V_v4 m c) _).trans (merge_apply _ b h s' e)
  simp only [e0, e1, e2, e3, e4]

/-- The run, read: every weakly fair execution terminates with each element of the result at the row form of the
    argument arrays, and the arguments unchanged. -/
theorem run : θ_run defs (onTc (τ := τ) (main (F := Ideal))) ⟨m, fun _ => 0, ρ⟩ fun r => ∀ c : Dev nD,
      (∀ (b : Fin 2) (h : Fin 16) (s : Fin 2048) (d : Fin 64),
        (r.2.mem ((c.tc : Thread nD τ).loc main_v6) : S2x16x2048x64.Idx → EReal) (ix4 b h s d)
          = row4 (m ((c : Thread nD τ).loc main_arg0)) (m ((c : Thread nD τ).loc main_arg1)) (m ((c : Thread nD τ).loc main_arg2))
              (m ((c : Thread nD τ).loc main_arg3)) (m ((c : Thread nD τ).loc main_arg4)) b h s d)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun r h c =>
    ⟨fun b hh s d => by
        rw [(h c).2 main_v6 (Pipeline.mem_restRefs_of main_v6 (by decide) (by decide))]
        exact result_apply m c b hh s d,
      (((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c))⟩)
    (run_main m ρ)

end AtIdeal

end Cert.KernelIdeal.Value

end
-- ==== Proof.RefRow.lean ====
import proofs.«424549_j84774064488741_3_alg».proof.Proof.Gen.ReferenceIdeal.Read
import proofs.«424549_j84774064488741_3_alg».proof.Proof.AttnRow
import Idealize.ShloMosaic.Lib.ValueIdx
import Idealize.ShloMosaic.PureOps.Ideal.Laws
import Idealize.ShloMosaic.PureOps.Reduce

noncomputable section

open scoped BigOperators

namespace Cert.ReferenceIdeal.RefRow

open Idealize.ShloMosaic Idealize.ShloMosaic.ValueIdx Cert.ReferenceIdeal Cert.ReferenceIdeal.Read Cert.AttnRow

/-! ## Where each stage reads its operands, at explicit coordinates

Every stage of the reference reads its operands at an index computed from the result's index. At batch `b`, head `h`,
query `s` and a key `k` (or a feature `e`, or a value column `d`) each of these is again an index built from the
same coordinates: a contraction over features keeps `(b, h, s)` on the left and `(b, h, k)` on the right, a
keepdims broadcast forgets the key, and the contraction over keys keeps `(b, h, s)` on the weights and `(b, h, ·, d)`
on the values. -/

/-- Content scores, left operand: the query row `s` at feature `e`. -/
private theorem lidx0_eq (b : Fin 2) (h : Fin 16) (s k : Fin 2048) (e : Fin 64) :
    lidx_main_v0 (ix4 b h s k) e = ix4 b h s e :=
  funext fun a => Fin.ext (by match a with | ⟨0, _⟩ => rfl | ⟨1, _⟩ => rfl | ⟨2, _⟩ => rfl | ⟨3, _⟩ => rfl)

/-- Content scores, right operand: the key row `k` at feature `e`. -/
private theorem ridx0_eq (b : Fin 2) (h : Fin 16) (s k : Fin 2048) (e : Fin 64) :
    ridx_main_v0 (ix4 b h s k) e = ix4 b h k e :=
  funext fun a => Fin.ext (by match a with | ⟨0, _⟩ => rfl | ⟨1, _⟩ => rfl | ⟨2, _⟩ => rfl | ⟨3, _⟩ => rfl)

/-- Positional scores, left operand: the query row `s` at feature `e`. -/
private theorem lidx3_eq (b : Fin 2) (h : Fin 16) (s k : Fin 2048) (e : Fin 64) :
    lidx_main_v3 (ix4 b h s k) e = ix4 b h s e :=
  funext fun a => Fin.ext (by match a with | ⟨0, _⟩ => rfl | ⟨1, _⟩ => rfl | ⟨2, _⟩ => rfl | ⟨3, _⟩ => rfl)

/-- Positional scores, right operand: the key row `k` at feature `e`. -/
private theorem ridx3_eq (b : Fin 2) (h : Fin 16) (s k : Fin 2048) (e : Fin 64) :
    ridx_main_v3 (ix4 b h s k) e = ix4 b h k e :=
  funext fun a => Fin.ext (by match a with | ⟨0, _⟩ => rfl | ⟨1, _⟩ => rfl | ⟨2, _⟩ => rfl | ⟨3, _⟩ => rfl)

/-- The row maximum, broadcast back over the keys, is read at the row `(b, h, s)` whatever the key. -/
private theorem idx10_11_eq (b : Fin 2) (h : Fin 16) (s k : Fin 2048) :
    idx_main_v10 (idx_main_v11 (ix4 b h s k)) = ix3 b h s :=
  funext fun a => Fin.ext (by match a with | ⟨0, _⟩ => rfl | ⟨1, _⟩ => rfl | ⟨2, _⟩ => rfl)

/-- The sum over the keys of row `(b, h, s)` reads the weights at `(b, h, s, k)`. -/
private theorem idx14_eq (b : Fin 2) (h : Fin 16) (s k : Fin 2048) :
    idx_main_v14 (ix3 b h s) k = ix4 b h s k :=
  funext fun a => Fin.ext (by match a with | ⟨0, _⟩ => rfl | ⟨1, _⟩ => rfl | ⟨2, _⟩ => rfl | ⟨3, _⟩ => rfl)

/-- The weights' total, broadcast back over the keys, is read at the row `(b, h, s)` whatever the key. -/
private theorem idx15_16_eq (b : Fin 2) (h : Fin 16) (s k : Fin 2048) :
    idx_main_v15 (idx_main_v16 (ix4 b h s k)) = ix3 b h s :=
  funext fun a => Fin.ext (by match a with | ⟨0, _⟩ => rfl | ⟨1, _⟩ => rfl | ⟨2, _⟩ => rfl)

/-- The last contraction, left operand: the normalised weight of key `k` in row `(b, h, s)`. -/
private theorem lidx18_eq (b : Fin 2) (h : Fin 16) (s k : Fin 2048) (d : Fin 64) :
    lidx_main_v18 (ix4 b h s d) k = ix4 b h s k :=
  funext fun a => Fin.ext (by match a with | ⟨0, _⟩ => rfl | ⟨1, _⟩ => rfl | ⟨2, _⟩ => rfl | ⟨3, _⟩ => rfl)

/-- The last contraction, right operand: column `d` of the value row `k`. -/
private theorem ridx18_eq (b : Fin 2) (h : Fin 16) (s k : Fin 2048) (d : Fin 64) :
    ridx_main_v18 (ix4 b h s d) k = ix4 b h k d :=
  funext fun a => Fin.ext (by match a with | ⟨0, _⟩ => rfl | ⟨1, _⟩ => rfl | ⟨2, _⟩ => rfl | ⟨3, _⟩ => rfl)

/-- Inserting the key `k` on the reduced axis of the row `(b, h, s)` gives `(b, h, s, k)`. -/
private theorem lift_eq (hr : S2x16x2048x2048.Reduces [3] S2x16x2048) (b : Fin 2) (h : Fin 16) (s k : Fin 2048) :
    hr.lift (ix3 b h s) k = ix4 b h s k :=
  funext fun a => Fin.ext (by match a with | ⟨0, _⟩ => rfl | ⟨1, _⟩ => rfl | ⟨2, _⟩ => rfl | ⟨3, _⟩ => rfl)

/-! ## The stages of one row -/

/-- The score of query `s` against key `k`: the content dot product and the positional dot product, each over the 64
    features and each scaled after its sum, added. -/
private theorem score_apply (x0 x1 x3 x4 : (⟨S2x16x2048x64, .f32⟩ : BufTy).Contents (Elt Ideal))
    (b : Fin 2) (h : Fin 16) (s k : Fin 2048) :
    val_main_v6 (F := Ideal) x0 x1 x3 x4 (ix4 b h s k)
      = scoreSplit (Ideal.ofBits .f32 0x3E000000#32)
          (fun e => x0 (ix4 b h s e)) (fun e => x3 (ix4 b h s e)) (fun e => x1 (ix4 b h k e)) (fun e => x4 (ix4 b h k e)) := by
  rw [val_main_v6_apply, val_main_v2_apply, val_main_v5_apply, val_main_v0_apply, val_main_v3_apply,
    val_main_v1_apply, val_main_v4_apply, val_main_cst_apply, val_main_cst_0_apply]
  simp only [lidx0_eq, ridx0_eq, lidx3_eq, ridx3_eq]
  rfl

/-- The row maximum: the reference folds `max` from `-∞` over the keys of row `(b, h, s)`, then takes `max` with
    `-∞` once more; `-∞` is the bottom of the extended reals, so what is left is the fold of `max` from `⊥` over
    the row's scores. -/
private theorem rowmax_apply (x0 x1 x3 x4 : (⟨S2x16x2048x64, .f32⟩ : BufTy).Contents (Elt Ideal))
    (b : Fin 2) (h : Fin 16) (s : Fin 2048) (S : Fin 2048 → EReal)
    (hS : ∀ k, val_main_v6 (F := Ideal) x0 x1 x3 x4 (ix4 b h s k) = S k) :
    val_main_v9 (F := Ideal) x0 x1 x3 x4 (ix3 b h s) = rowMax S := by
  have hr : S2x16x2048x2048.Reduces [3] S2x16x2048 := by decide
  have hf : (val_main_v6 (F := Ideal) x0 x1 x3 x4 ∘ hr.lift (ix3 b h s)) = S := funext fun k =>
    (congrArg (val_main_v6 (F := Ideal) x0 x1 x3 x4) (lift_eq hr b h s k)).trans (hS k)
  rw [val_main_v9_apply, val_main_v8_apply, val_main_cst_2_apply]
  unfold val_main_v7
  rw [Host.reduce_eq_fold_single FloatOps.maximumf _ _ _ hr _ (ix3 b h s), hf, val_main_cst_1_apply]
  show max (Ideal.ofBits .f32 0xFF800000#32) (Finset.univ.fold max (Ideal.ofBits .f32 0xFF800000#32) S) = rowMax S
  rw [ofBits_neg_inf, max_bot_left]
  rfl

/-- The unnormalised weight of key `k` in row `(b, h, s)`: the exponential of the score less the row maximum. -/
private theorem weight_apply (x0 x1 x3 x4 : (⟨S2x16x2048x64, .f32⟩ : BufTy).Contents (Elt Ideal))
    (b : Fin 2) (h : Fin 16) (s : Fin 2048) (S : Fin 2048 → EReal)
    (hS : ∀ k, val_main_v6 (F := Ideal) x0 x1 x3 x4 (ix4 b h s k) = S k) (k : Fin 2048) :
    val_main_v13 (F := Ideal) x0 x1 x3 x4 (ix4 b h s k) = weight S k := by
  rw [val_main_v13_apply, val_main_v12_apply, val_main_v11_apply, val_main_v10_apply, idx10_11_eq,
    rowmax_apply x0 x1 x3 x4 b h s S hS, hS]
  rfl

/-- The total of the weights of row `(b, h, s)`: the reference's sum starts from zero, which adds nothing. -/
private theorem total_apply (x0 x1 x3 x4 : (⟨S2x16x2048x64, .f32⟩ : BufTy).Contents (Elt Ideal))
    (b : Fin 2) (h : Fin 16) (s : Fin 2048) (S : Fin 2048 → EReal)
    (hS : ∀ k, val_main_v6 (F := Ideal) x0 x1 x3 x4 (ix4 b h s k) = S k) :
    val_main_v14 (F := Ideal) x0 x1 x3 x4 (ix3 b h s) = ∑ k : Fin 2048, weight S k := by
  rw [val_main_v14_apply, val_main_cst_3_apply]
  simp only [idx14_eq, weight_apply x0 x1 x3 x4 b h s S hS]
  show Ideal.ofBits .f32 0x00000000#32 + _ = _
  rw [Ideal.ofBits_zero_f32, zero_add]

/-- The reference's result at batch `b`, head `h`, query `s`, column `d`: the split-score, normalise-before row form
    over row `s` of the two query arrays, the rows of the two key arrays and column `d` of the value array, all of
    batch `b` and head `h`. -/
theorem ref_apply (x0 x1 x2 x3 x4 : (⟨S2x16x2048x64, .f32⟩ : BufTy).Contents (Elt Ideal))
    (b : Fin 2) (h : Fin 16) (s : Fin 2048) (d : Fin 64) :
    val_main_v18 (F := Ideal) x0 x1 x2 x3 x4 (ix4 b h s d)
      = normBefore
          (fun k => scoreSplit (Ideal.ofBits .f32 0x3E000000#32)
            (fun e => x0 (ix4 b h s e)) (fun e => x3 (ix4 b h s e)) (fun e => x1 (ix4 b h k e)) (fun e => x4 (ix4 b h k e)))
          (fun k => x2 (ix4 b h k d)) := by
  rw [val_main_v18_apply]
  refine Finset.sum_congr rfl fun k _ => ?_
  rw [lidx18_eq, ridx18_eq, val_main_v17_apply, val_main_v16_apply, val_main_v15_apply, idx15_16_eq,
    weight_apply x0 x1 x3 x4 b h s _ (score_apply x0 x1 x3 x4 b h s),
    total_apply x0 x1 x3 x4 b h s _ (score_apply x0 x1 x3 x4 b h s)]
  rfl

end Cert.ReferenceIdeal.RefRow

end
-- ==== Proof.Finite.lean ====
import proofs.«424549_j84774064488741_3_alg».proof.Pre_finite_inputs
import Idealize.ShloMosaic.Lib.ValueIdx
import Idealize.ShloMosaic.Lib.ReduceAll
import Idealize.ShloMosaic.PureOps.Ideal.Laws

noncomputable section

namespace Cert.Pre_finite_inputs.Finite

open Idealize.ShloMosaic Idealize.ShloMosaic.ValueIdx Cert.Pre_finite_inputs

variable [Cert.Pre_finite_inputs.Facts]

/-- A boolean read as a one-bit word is the word one exactly when it is true. -/
private theorem ofBool_eq_one_iff {b : Bool} : BitVec.ofBool b = 1#1 ↔ b = true := by cases b <;> decide

/-- The word `0x7F800000` (sign clear, exponent all ones, fraction zero) read as an ideal binary32 value is `+∞`. -/
private theorem ofBits_inf : Ideal.ofBits .f32 0x7F800000#32 = (⊤ : EReal) := by
  simp [Ideal.ofBits, Ideal.ieee]

/-- An extended real whose absolute value `max x (-x)` lies strictly below `⊤` is a real number: at `⊤` the maximum
    is `⊤` itself, at `⊥` the negation is `⊤`, and neither is below `⊤`. -/
private theorem real_of_abs_lt_top (x : EReal) (h : max x (-x) < ⊤) : ∃ r : ℝ, x = (r : EReal) := by
  induction x using EReal.rec with
  | bot => simp at h
  | coe r => exact ⟨r, rfl⟩
  | top => simp at h

/-- One array's test: where the conjunction over all four axes of `|x| < +∞` answers one, every entry of `x` is a real.
    The word `0x7F800000` denotes `⊤`, the broadcast of the scalar reads it at every index, and the ordered
    comparison is the strict order of the extended reals. -/
private theorem real_of_all (x : FVec Ideal S2x16x2048x64 .f32) (init : IVec S_ 1)
    (h : Host.reduce IntOp.andi
        (cmpf .olt (Host.absf x)
          (broadcastInDim S2x16x2048x64 ![] Facts.bcast_S_S2x16x2048x64 (constant (F := Ideal) S_ .f32 0x7F800000#32)))
        init Facts.reducesTo_S2x16x2048x64_S_d0_1_2_3 Facts.h_S_ ValueIdx.ix0 = 1#1) :
    ∀ i, ∃ r : ℝ, x i = (r : EReal) := by
  intro i
  -- the scalar shape has exactly one index
  haveI : Subsingleton S_.Idx := ⟨fun a b => funext fun d => d.elim0⟩
  have hi := Host.reduce_andi_all _ init _ _ _ h i
  apply real_of_abs_lt_top
  simp only [cmpf, Host.absf, broadcastInDim, constant] at hi
  rw [Ideal.hostAbsf_def, Ideal.absf_def, Ideal.ofBits_def, ofBits_inf, Ideal.cmpf_def] at hi
  simp only [Ideal.cmp, ofBool_eq_one_iff, decide_eq_true_eq] at hi
  exact hi

/-- Where the finiteness predicate answers all ones, every entry of each of the five arrays is a real number:
    each `|x| < +∞` test holds at every index, and an extended real whose absolute value is below `⊤` is neither
    infinity. -/
theorem real_of_fn (x0 x1 x2 x3 x4 : FVec Ideal S2x16x2048x64 .f32)
    (h : fn (F := Ideal) x0 x1 x2 x3 x4 = fun _ => 1#1) :
    (∀ i, ∃ r : ℝ, x0 i = (r : EReal)) ∧ (∀ i, ∃ r : ℝ, x1 i = (r : EReal)) ∧ (∀ i, ∃ r : ℝ, x2 i = (r : EReal))
      ∧ (∀ i, ∃ r : ℝ, x3 i = (r : EReal)) ∧ (∀ i, ∃ r : ℝ, x4 i = (r : EReal)) := by
  have h0 := congrFun h ValueIdx.ix0
  dsimp only [fn, fn_part1] at h0
  simp only [Idealize.ShloMosaic.andi, IntOp.andi_eq_one] at h0
  obtain ⟨⟨⟨⟨h0, h1⟩, h2⟩, h3⟩, h4⟩ := h0
  exact ⟨real_of_all x0 _ h0, real_of_all x1 _ h1, real_of_all x2 _ h2, real_of_all x3 _ h3, real_of_all x4 _ h4⟩

end Cert.Pre_finite_inputs.Finite

end
-- ==== Proof.Bridge.lean ====
import proofs.«424549_j84774064488741_3_alg».proof.Proof.KernelValue
import proofs.«424549_j84774064488741_3_alg».proof.Proof.RefRow
import proofs.«424549_j84774064488741_3_alg».proof.Proof.Finite
import proofs.«424549_j84774064488741_3_alg».proof.Proof.AttnRow

noncomputable section

/-! ## Kernel and reference meet

At every result index the kernel's value is the fused-score, normalise-after row form and the reference's the
split-score, normalise-before row form of the same rows of the same five arrays; where every entry is a real number
the two forms are one extended real (the row law). Finiteness is used exactly here: it moves the scale `1/8` out of
the two dot products and the division by the weights' total into the weighted sum. -/

namespace Cert.Bridge

open Idealize.ShloMosaic Idealize.ShloMosaic.ValueIdx

variable [Cert.Pre_finite_inputs.Facts]

theorem row4_eq_ref (A0 A1 A2 A3 A4 : FVec Ideal Cert.Pre_finite_inputs.S2x16x2048x64 .f32)
    (hfin : Cert.Pre_finite_inputs.fn (F := Ideal) A0 A1 A2 A3 A4 = fun _ => 1#1)
    (b : Fin 2) (h : Fin 16) (s : Fin 2048) (d : Fin 64) :
    Cert.KernelIdeal.Value.row4 A0 A1 A2 A3 A4 b h s d
      = Cert.ReferenceIdeal.Read.val_main_v18 (F := Ideal) A0 A1 A2 A3 A4 (ix4 b h s d) := by
  obtain ⟨r0, r1, r2, r3, r4⟩ := Cert.Pre_finite_inputs.Finite.real_of_fn A0 A1 A2 A3 A4 hfin
  choose f0 hf0 using r0
  choose f1 hf1 using r1
  choose f2 hf2 using r2
  choose f3 hf3 using r3
  choose f4 hf4 using r4
  obtain rfl : A0 = fun i => (f0 i : EReal) := funext hf0
  obtain rfl : A1 = fun i => (f1 i : EReal) := funext hf1
  obtain rfl : A2 = fun i => (f2 i : EReal) := funext hf2
  obtain rfl : A3 = fun i => (f3 i : EReal) := funext hf3
  obtain rfl : A4 = fun i => (f4 i : EReal) := funext hf4
  rw [Cert.ReferenceIdeal.RefRow.ref_apply]
  unfold Cert.KernelIdeal.Value.row4
  rw [Cert.AttnRow.ofBits_eighth]
  exact Cert.AttnRow.attention_row (1 / 8) (fun e => f0 (ix4 b h s e)) (fun e => f3 (ix4 b h s e))
    (fun k e => f1 (ix4 b h k e)) (fun k e => f4 (ix4 b h k e)) (fun k => f2 (ix4 b h k d))

end Cert.Bridge

end
-- ==== Proof.lean ====
/- Scaled dot-product attention with a content and a positional score, B = 2, H = 16, S = 2048, D = 64.

   The kernel works head by head (32 heads, batch and head merged by a reshape) and query tile by query tile (two tiles
   of 1024 rows). At a head's first tile it caches the head's keys and positional keys side by side ([2048, 128]) and
   its values ([2048, 64]) in scratch; at both tiles it scales the two query tiles by 1/8, puts them side by side,
   contracts them with the cached key matrix in ONE product of length 128, takes the row maximum, exponentiates,
   sums, multiplies the weights with the cached values and divides by the row sum. The reference scales the two
   dot products of length 64 after summing them, normalises the weights FIRST (softmax) and then multiplies by the
   values. Over the extended reals the changes of format are the identity; the two programs differ by where the
   scale and the normalisation sit, and for finite inputs those are the same real numbers (Proof/AttnRow.lean).

   Proof/KernelPieces.lean reads what one grid point leaves in its output block and in the scratch; Proof/KernelValue.lean
   shows the scratch holds the head's matrices at both of its points, reads every element of the result array, and undoes
   the two reshapes; Proof/KernelRow.lean is the body's arithmetic at one index; Proof/RefRow.lean the reference's at one
   index; Proof/Finite.lean reads the precondition; Proof/Bridge.lean joins the two sides by the row law. -/
import proofs.«424549_j84774064488741_3_alg».proof.Defs
import proofs.«424549_j84774064488741_3_alg».proof.Proof.Gen.Kernel
import proofs.«424549_j84774064488741_3_alg».proof.Proof.Gen.Kernel.Frame
import proofs.«424549_j84774064488741_3_alg».proof.Proof.Gen.KernelIdeal
import proofs.«424549_j84774064488741_3_alg».proof.Proof.Gen.KernelIdeal.Frame
import proofs.«424549_j84774064488741_3_alg».proof.Proof.Gen.ReferenceIdeal
import proofs.«424549_j84774064488741_3_alg».proof.Proof.Gen.ReferenceIdeal.Run
import proofs.«424549_j84774064488741_3_alg».proof.Proof.Gen.ReferenceIdeal.Read
import proofs.«424549_j84774064488741_3_alg».proof.Proof.Gen.Pre_finite_inputs
import proofs.«424549_j84774064488741_3_alg».proof.Proof.KernelValue
import proofs.«424549_j84774064488741_3_alg».proof.Proof.Bridge
import Idealize.ShloMosaic.Adequacy
import Idealize.ShloMosaic.Init

noncomputable section

namespace Cert.Proof

open Idealize.ShloMosaic Idealize.ShloMosaic.TcCoe Idealize.SL.Sem Idealize.ShloMosaic.ValueIdx

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both programs end with every result element at the attention value of the rows of the argument arrays: the kernel's
    in the fused, normalise-after form, the reference's in the split, normalise-before form; for finite inputs these are
    equal (`Cert.Bridge.row4_eq_ref`). -/
theorem algebraic : Cert.algebraic_KernelIdeal_ReferenceIdeal := by
  intro m ρ m' ρ' hpre hagree
  refine ⟨fun c => Cert.ReferenceIdeal.Read.val_main_v18 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)), ?_, ?_⟩
  · refine (θ_run Cert.KernelIdeal.defs _ _).mono (fun r h c => ⟨?_, (h c).2⟩) (Cert.KernelIdeal.Value.run m ρ)
    funext i
    obtain ⟨b, hh, s, d, rfl⟩ : ∃ (b : Fin 2) (hh : Fin 16) (s : Fin 2048) (d : Fin 64), i = ix4 b hh s d :=
      ⟨i 0, i 1, i 2, i 3, eq_ix4 i⟩
    exact ((h c).1 b hh s d).trans (Cert.Bridge.row4_eq_ref _ _ _ _ _ (hpre c) b hh s d)
  · refine (θ_run Cert.ReferenceIdeal.defs _ _).mono (fun r h c => ⟨?_, (h c).2⟩)
      (Cert.ReferenceIdeal.Value.run (F := Ideal) m' ρ')
    refine ((h c).1.trans (Cert.ReferenceIdeal.Read.val_main_v18_eq _ _ _ _ _)).trans ?_
    rw [(hagree c).1, (hagree c).2.1, (hagree c).2.2.1, (hagree c).2.2.2.1, (hagree c).2.2.2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
